-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128x128 .f32) (main_arg10 : FVec F S128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x600000 32) (main_arg2 : IVec S50000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x64 : Shape := ⟨2, ![600000, 64]⟩
abbrev S1x128 : Shape := ⟨2, ![1, 128]⟩
abbrev S50000x128 : Shape := ⟨2, ![50000, 128]⟩
abbrev S10000x64 : Shape := ⟨2, ![10000, 64]⟩
abbrev S10000x1 : Shape := ⟨2, ![10000, 1]⟩
abbrev S10000x128 : Shape := ⟨2, ![10000, 128]⟩
abbrev S600000x128 : Shape := ⟨2, ![600000, 128]⟩
abbrev S25x64x128 : Shape := ⟨3, ![25, 64, 128]⟩
abbrev S2000x128 : Shape := ⟨2, ![2000, 128]⟩
abbrev S2000x1 : Shape := ⟨2, ![2000, 1]⟩
abbrev S1x64x128 : Shape := ⟨3, ![1, 64, 128]⟩
abbrev S1x64 : Shape := ⟨2, ![1, 64]⟩
abbrev S2000x64 : Shape := ⟨2, ![2000, 64]⟩
abbrev S64 : Shape := ⟨1, ![64]⟩
abbrev S64x1 : Shape := ⟨2, ![64, 1]⟩

abbrev nBuf : Space → Nat
  | .hbm => 105
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x1, .bf16⟩
  | .hbm, ⟨31, _⟩ => ⟨S50000x64, .bf16⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x64, .bf16⟩
  | .hbm, ⟨41, _⟩ => ⟨S600000x64, .f32⟩
  | .hbm, ⟨42, _⟩ => ⟨S_, .f32⟩
  | .hbm, ⟨43, _⟩ => ⟨S50000x64, .f32⟩
  | .hbm, ⟨44, _⟩ => ⟨S600000x1, .i32⟩
  | .hbm, ⟨45, _⟩ => ⟨S50000x64, .f32⟩
  | .hbm, ⟨46, _⟩ => ⟨S50000x64, .bf16⟩
  | .hbm, ⟨47, _⟩ => ⟨S1x128, .f32⟩
  | .hbm, ⟨48, _⟩ => ⟨S64x128, .bf16⟩
  | .hbm, ⟨49, _⟩ => ⟨S64x128, .bf16⟩
  | .hbm, ⟨50, _⟩ => ⟨S50000x128, .bf16⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .bf16⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S50000x128, .bf16⟩
  | .hbm, ⟨66, _⟩ => ⟨S1x128, .f32⟩
  | .hbm, ⟨67, _⟩ => ⟨S128x128, .bf16⟩
  | .hbm, ⟨68, _⟩ => ⟨S128x128, .bf16⟩
  | .hbm, ⟨69, _⟩ => ⟨S50000x128, .bf16⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .bf16⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S50000x128, .bf16⟩
  | .hbm, ⟨85, _⟩ => ⟨S1x128, .f32⟩
  | .hbm, ⟨86, _⟩ => ⟨S128x128, .bf16⟩
  | .hbm, ⟨87, _⟩ => ⟨S128x128, .bf16⟩
  | .hbm, ⟨88, _⟩ => ⟨S50000x1, .i32⟩
  | .hbm, ⟨89, _⟩ => ⟨S25x64x128, .f32⟩
  | .hbm, ⟨90, _⟩ => ⟨S_, .f32⟩
  | .hbm, ⟨91, _⟩ => ⟨S64x128, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S64, .f32⟩
  | .hbm, ⟨96, _⟩ => ⟨S50000x1, .i32⟩
  | .hbm, ⟨97, _⟩ => ⟨S64, .f32⟩
  | .hbm, ⟨98, _⟩ => ⟨S_, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64x1, .f32⟩
  | .hbm, ⟨103, _⟩ => ⟨S64x128, .f32⟩
  | .hbm, ⟨104, _⟩ => ⟨S64x128, .f32⟩
  | .local _ .vmem, ⟨0, _⟩ => ⟨S10000x64, .bf16⟩
  | .local _ .vmem, ⟨1, _⟩ => ⟨S10000x64, .bf16⟩
  | .local _ .vmem, ⟨2, _⟩ => ⟨S10000x1, .bf16⟩
  | .local _ .vmem, ⟨3, _⟩ => ⟨S10000x1, .bf16⟩
  | .local _ .vmem, ⟨4, _⟩ => ⟨S10000x64, .bf16⟩
  | .local _ .vmem, ⟨5, _⟩ => ⟨S10000x64, .bf16⟩
  | .local _ .vmem, ⟨6, _⟩ => ⟨S64x128, .bf16⟩
  | .local _ .vmem, ⟨7, _⟩ => ⟨S1x128, .f32⟩
  | .local _ .vmem, ⟨8, _⟩ => ⟨S64x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S10000x1, .bf16⟩
  | .local _ .vmem, ⟨14, _⟩ => ⟨S10000x1, .bf16⟩
  | .local _ .vmem, ⟨15, _⟩ => ⟨S10000x128, .bf16⟩
  | .local _ .vmem, ⟨16, _⟩ => ⟨S10000x128, .bf16⟩
  | .local _ .vmem, ⟨17, _⟩ => ⟨S128x128, .bf16⟩
  | .local _ .vmem, ⟨18, _⟩ => ⟨S1x128, .f32⟩
  | .local _ .vmem, ⟨19, _⟩ => ⟨S128x128, .bf16⟩
  | .local _ .vmem, ⟨20, _⟩ => ⟨S10000x128, .bf16⟩
  | .local _ .vmem, ⟨21, _⟩ => ⟨S10000x128, .bf16⟩
  | .local _ .vmem, ⟨22, _⟩ => ⟨S2000x128, .bf16⟩
  | .local _ .vmem, ⟨23, _⟩ => ⟨S2000x128, .bf16⟩
  | .local _ .vmem, ⟨24, _⟩ => ⟨S2000x1, .bf16⟩
  | .local _ .vmem, ⟨25, _⟩ => ⟨S2000x1, .bf16⟩
  | .local _ .vmem, ⟨26, _⟩ => ⟨S2000x128, .bf16⟩
  | .local _ .vmem, ⟨27, _⟩ => ⟨S2000x128, .bf16⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S2000x1, .i32⟩
  | .local _ .vmem, ⟨32, _⟩ => ⟨S2000x1, .i32⟩
  | .local _ .vmem, ⟨33, _⟩ => ⟨S1x64x128, .f32⟩
  | .local _ .vmem, ⟨34, _⟩ => ⟨S1x64x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_call1_v0 : Ref sig .tc := ⟨.hbm, 99, rfl⟩
abbrev main_call1_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S50000x128 : S_.BroadcastsInDim S50000x128 (![] : Fin 0 → Fin S50000x128.rank)
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S25x64x128_S64x128_d0 : S25x64x128.ReducesTo [0] S64x128
  h_S_ : 0 < S_.numel
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S600000x1_S600000_n_0_0_1_wf : ScatterDims.WF S50000 S600000x1 S600000 [] [0] [0] 1
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S10000x64_S64x128_S10000x128_1_0_0_1_n_n_wf : DotDims.WF S10000x64 S64x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .bf16 = 32 ∨ (Rect.block (s := S50000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .bf16 = 32 ∨ (Rect.block (s := S50000x1) S10000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .bf16 = 32 ∨ (Rect.block (s := S50000x128) S10000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .bf16 = 32 ∨ (Rect.block (s := S50000x1) S10000x1.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .bf16 = 32 ∨ (Rect.block (s := S50000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .bf16 = 32 ∨ (Rect.block (s := S50000x128) S10000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .bf16 = 32 ∨ (Rect.block (s := S50000x1) S2000x1.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .i32 = 32 ∨ (Rect.block (s := S50000x1) S2000x1.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x64x128.size a ≤ S25x64x128.size a
  hwx2_7 : ∀ i : grid2.Coords, EltTy.bits .f32 = 32 ∨ (Rect.block (s := S25x64x128) S1x64x128.size (cc2_transform_7 i) (hinb2_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62) S1x64x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x64 : Shape := ⟨2, ![600000, 64]⟩
abbrev S50000x1 : Shape := ⟨2, ![50000, 1]⟩
abbrev S50000x128 : Shape := ⟨2, ![50000, 128]⟩
abbrev S1x128 : Shape := ⟨2, ![1, 128]⟩
abbrev S600000x128 : Shape := ⟨2, ![600000, 128]⟩
abbrev S64 : Shape := ⟨1, ![64]⟩
abbrev S64x1 : Shape := ⟨2, ![64, 1]⟩

abbrev nBuf : Space → Nat
  | .hbm => 135
  | .vmem => 0
  | .smem => 0
  | _ => 0

abbrev hbmTy0_0 (i : Nat) : BufTy := match i % 128 with
  | 0 => ⟨S50000x64, .f32⟩
  | 1 => ⟨S2x600000, .i32⟩
  | 2 => ⟨S50000, .i32⟩
  | 3 => ⟨S64x128, .f32⟩
  | 4 => ⟨S128, .f32⟩
  | 5 => ⟨S64x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x64, .f32⟩
  | 25 => ⟨S_, .f32⟩
  | 26 => ⟨S50000x64, .f32⟩
  | 27 => ⟨S600000x1, .i32⟩
  | 28 => ⟨S50000x64, .f32⟩
  | 29 => ⟨S_, .f32⟩
  | 30 => ⟨S600000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S50000x1, .f32⟩
  | 40 => ⟨S50000x64, .f32⟩
  | 41 => ⟨S50000x64, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S_, .f32⟩
  | 65 => ⟨S600000, .f32⟩
  | 66 => ⟨S_, .f32⟩
  | 67 => ⟨S50000, .f32⟩
  | 68 => ⟨S600000x1, .i32⟩
  | 69 => ⟨S50000, .f32⟩
  | 70 => ⟨S_, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S_, .f32⟩
  | 100 => ⟨S600000, .f32⟩
  | 101 => ⟨S_, .f32⟩
  | 102 => ⟨S50000, .f32⟩
  | 103 => ⟨S600000x1, .i32⟩
  | 104 => ⟨S50000, .f32⟩
  | 105 => ⟨S_, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S64x128, .f32⟩
  | 120 => ⟨S50000x1, .i32⟩
  | 121 => ⟨S64x128, .f32⟩
  | 122 => ⟨S_, .f32⟩
  | 123 => ⟨S50000, .f32⟩
  | 124 => ⟨S_, .f32⟩
  | 125 => ⟨S64, .f32⟩
  | 126 => ⟨S50000x1, .i32⟩
  | 127 => ⟨S64, .f32⟩
  | _ => ⟨S50000x64, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S64x1, .f32⟩
  | 5 => ⟨S64x128, .f32⟩
  | 6 => ⟨S64x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_call4_v0 : Ref sig .tc := ⟨.hbm, 106, rfl⟩
abbrev main_call4_v1 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_17 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_19 : Ref sig .tc := ⟨.hbm, 128, rfl⟩
abbrev main_call5_v0 : Ref sig .tc := ⟨.hbm, 129, rfl⟩
abbrev main_call5_v1 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000_S600000x1_S600000_n_0_0_1_wf : ScatterDims.WF S50000 S600000x1 S600000 [] [0] [0] 1
  dot_S50000x64_S64x128_S50000x128_1_0_0_1_n_n_wf : DotDims.WF S50000x64 S64x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.SageMath.lean ====
import Mathlib.Data.EReal.Basic
import Mathlib.Data.EReal.Inv
import Mathlib.Algebra.BigOperators.Fin
import Mathlib.Data.Fintype.BigOperators
import Mathlib.Logic.Equiv.Fin.Basic
import Idealize.ShloMosaic.PureOps.Ideal
import Idealize.ShloMosaic.Lib.ValueIdx

/-!
# A mean-aggregating graph layer and a per-graph sum, in two arrangements

One layer of the network takes, for every node r, the aggregated neighbour features A r (a sum over the
edges that end in r), the node's own features h r, and the number c r of edges that end in r, raised to
at least one. It returns

  (A r / c r) · Wl + b + (h r) · Wr.

One arrangement divides the aggregate by c r and adds the three terms in that order. The other multiplies
the aggregate by the reciprocal 1 / c r, computed once, and adds the bias last. On the extended reals a
quotient by a number other than zero IS the product with that number's inverse, and 1 / c r is that inverse,
so the two first terms agree entry by entry; the rest is the order of a three-term sum.

The last layer's rows are then summed per graph. One arrangement adds row n onto the row of its graph
number bt n (a row whose number names no graph is dropped). The other cuts the nodes into tiles, forms in
each tile the product of the transposed 0/1 membership table with the rows, and adds the tiles' tables. The
membership entry of node n and graph g is 1 when bt n = g and 0 otherwise, 1 · a = a and 0 · a = 0 on the
extended reals (at the infinities too), and a sum over tiles and positions inside a tile is the sum over
all nodes.
-/

open scoped BigOperators
open Idealize.ShloMosaic Idealize.ShloMosaic.ValueIdx

noncomputable section

namespace Cert.Sage

/-- A rank-2 array given by its entries. -/
def of2 {a b : Nat} (f : Fin a → Fin b → EReal) : (⟨2, ![a, b]⟩ : Shape).Idx → EReal := fun i => f (i 0) (i 1)
theorem of2_apply {a b : Nat} (f : Fin a → Fin b → EReal) (p : Fin a) (q : Fin b) : of2 f (ix2 p q) = f p q := rfl

/-- A rank-1 array given by its entries. -/
def of1 {a : Nat} (f : Fin a → EReal) : (⟨1, ![a]⟩ : Shape).Idx → EReal := fun i => f (i 0)
theorem of1_apply {a : Nat} (f : Fin a → EReal) (p : Fin a) : of1 f (ix1 p) = f p := rfl

/-- A rank-3 array given by its entries. -/
def of3 {a b c : Nat} (f : Fin a → Fin b → Fin c → EReal) : (⟨3, ![a, b, c]⟩ : Shape).Idx → EReal :=
  fun i => f (i 0) (i 1) (i 2)
theorem of3_apply {a b c : Nat} (f : Fin a → Fin b → Fin c → EReal) (p : Fin a) (q : Fin b) (s : Fin c) :
    of3 f (ix3 p q s) = f p q s := rfl

section Layer
variable {N K D : Nat}

/-- The layer with the aggregate scaled by a column of reciprocals and the bias (a one-row table) added last. -/
def linK (A : (⟨2, ![N, K]⟩ : Shape).Idx → EReal) (inv : (⟨2, ![N, 1]⟩ : Shape).Idx → EReal)
    (h : (⟨2, ![N, K]⟩ : Shape).Idx → EReal) (wl : (⟨2, ![K, D]⟩ : Shape).Idx → EReal)
    (bl : (⟨2, ![1, D]⟩ : Shape).Idx → EReal) (wr : (⟨2, ![K, D]⟩ : Shape).Idx → EReal) (r : Fin N) (j : Fin D) : EReal :=
  ((∑ k : Fin K, (A (ix2 r k) * inv (ix2 r 0)) * wl (ix2 k j)) + ∑ k : Fin K, h (ix2 r k) * wr (ix2 k j))
    + bl (ix2 0 j)

/-- The layer with the aggregate divided by the counts and the bias (a vector) added in the middle. -/
def linR (A : (⟨2, ![N, K]⟩ : Shape).Idx → EReal) (c : (⟨1, ![N]⟩ : Shape).Idx → EReal)
    (h : (⟨2, ![N, K]⟩ : Shape).Idx → EReal) (wl : (⟨2, ![K, D]⟩ : Shape).Idx → EReal)
    (b : (⟨1, ![D]⟩ : Shape).Idx → EReal) (wr : (⟨2, ![K, D]⟩ : Shape).Idx → EReal) (r : Fin N) (j : Fin D) : EReal :=
  ((∑ k : Fin K, Ideal.div (A (ix2 r k)) (c (ix1 r)) * wl (ix2 k j)) + b (ix1 j))
    + ∑ k : Fin K, h (ix2 r k) * wr (ix2 k j)

/-- A product with the quotient of one by c is the quotient by c, for c other than zero. -/
theorem mul_div_one {a c : EReal} (hc : c ≠ 0) : a * Ideal.div 1 c = Ideal.div a c := by
  unfold Ideal.div
  rw [if_neg hc, if_neg hc, one_mul]

/-- The two arrangements of the layer agree wherever the count is not zero. -/
theorem linK_eq_linR (A : (⟨2, ![N, K]⟩ : Shape).Idx → EReal) (c : (⟨1, ![N]⟩ : Shape).Idx → EReal)
    (inv : (⟨2, ![N, 1]⟩ : Shape).Idx → EReal) (h : (⟨2, ![N, K]⟩ : Shape).Idx → EReal)
    (wl : (⟨2, ![K, D]⟩ : Shape).Idx → EReal) (b : (⟨1, ![D]⟩ : Shape).Idx → EReal)
    (bl : (⟨2, ![1, D]⟩ : Shape).Idx → EReal) (wr : (⟨2, ![K, D]⟩ : Shape).Idx → EReal)
    (r : Fin N) (j : Fin D) (hc : c (ix1 r) ≠ 0) (hinv : inv (ix2 r 0) = Ideal.div 1 (c (ix1 r)))
    (hbl : bl (ix2 0 j) = b (ix1 j)) :
    linK A inv h wl bl wr r j = linR A c h wl b wr r j := by
  unfold linK linR
  rw [hinv, hbl]
  simp only [mul_div_one hc]
  rw [add_right_comm]

end Layer

/-- The maximum of one and anything is not zero. -/
theorem max_one_ne_zero (x : EReal) : max (1 : EReal) x ≠ 0 := by
  have h : (0 : EReal) < max 1 x := lt_of_lt_of_le zero_lt_one (le_max_left _ _)
  exact ne_of_gt h

section Pool

/-- Position r of tile t is node t * bk + r, one of the nb * bk nodes. -/
theorem tile_lt {nb bk : ℕ} (t : Fin nb) (r : Fin bk) : t.val * bk + r.val < nb * bk := by
  have h1 := t.isLt; have h2 := r.isLt
  calc t.val * bk + r.val < t.val * bk + bk := by omega
    _ = (t.val + 1) * bk := by ring
    _ ≤ nb * bk := Nat.mul_le_mul_right _ h1

/-- A sum over nb tiles of bk positions is the sum over all nb * bk positions. -/
theorem sum_tiles {M : Type*} [AddCommMonoid M] (nb bk : ℕ) (f : Fin (nb * bk) → M) :
    (∑ t : Fin nb, ∑ r : Fin bk, f ⟨t.val * bk + r.val, tile_lt t r⟩) = ∑ n : Fin (nb * bk), f n := by
  rw [← Fintype.sum_prod_type', ← finProdFinEquiv.sum_comp]
  refine Finset.sum_congr rfl (fun p _ => ?_)
  congr 1
  apply Fin.ext
  simp only [finProdFinEquiv_apply_val]
  rw [Nat.mul_comm, Nat.add_comm]

/-- A 0/1 factor selects: the sum of mk n · a n, with mk n equal to 1 where P n holds and to 0 elsewhere, is
    the sum of the a n with P n. -/
theorem sum_onehot_mul {ι : Type*} [Fintype ι] (P : ι → Prop) [DecidablePred P] (mk : ι → EReal) (a : ι → EReal)
    (h1 : ∀ n, P n → mk n = 1) (h0 : ∀ n, ¬ P n → mk n = 0) :
    (∑ n, mk n * a n) = ∑ n, if P n then a n else 0 := by
  refine Finset.sum_congr rfl (fun n _ => ?_)
  by_cases hp : P n
  · rw [if_pos hp, h1 n hp, one_mul]
  · rw [if_neg hp, h0 n hp, zero_mul]

end Pool

section Whole
variable {N K D : Nat}

/-- The layer, bias last, as a whole table. -/
def layK (A : (⟨2, ![N, K]⟩ : Shape).Idx → EReal) (inv : (⟨2, ![N, 1]⟩ : Shape).Idx → EReal)
    (h : (⟨2, ![N, K]⟩ : Shape).Idx → EReal) (wl : (⟨2, ![K, D]⟩ : Shape).Idx → EReal)
    (bl : (⟨2, ![1, D]⟩ : Shape).Idx → EReal) (wr : (⟨2, ![K, D]⟩ : Shape).Idx → EReal) :
    (⟨2, ![N, D]⟩ : Shape).Idx → EReal := of2 (linK A inv h wl bl wr)

/-- The layer, bias in the middle, as a whole table. -/
def layR (A : (⟨2, ![N, K]⟩ : Shape).Idx → EReal) (c : (⟨1, ![N]⟩ : Shape).Idx → EReal)
    (h : (⟨2, ![N, K]⟩ : Shape).Idx → EReal) (wl : (⟨2, ![K, D]⟩ : Shape).Idx → EReal)
    (b : (⟨1, ![D]⟩ : Shape).Idx → EReal) (wr : (⟨2, ![K, D]⟩ : Shape).Idx → EReal) :
    (⟨2, ![N, D]⟩ : Shape).Idx → EReal := of2 (linR A c h wl b wr)

/-- Every entry below zero raised to zero. -/
def reluT {s : Shape} (X : s.Idx → EReal) : s.Idx → EReal := fun i => max (X i) 0

theorem layK_apply (A : (⟨2, ![N, K]⟩ : Shape).Idx → EReal) (inv : (⟨2, ![N, 1]⟩ : Shape).Idx → EReal)
    (h : (⟨2, ![N, K]⟩ : Shape).Idx → EReal) (wl : (⟨2, ![K, D]⟩ : Shape).Idx → EReal)
    (bl : (⟨2, ![1, D]⟩ : Shape).Idx → EReal) (wr : (⟨2, ![K, D]⟩ : Shape).Idx → EReal) (r : Fin N) (j : Fin D) :
    layK A inv h wl bl wr (ix2 r j) = linK A inv h wl bl wr r j := rfl

theorem layR_apply (A : (⟨2, ![N, K]⟩ : Shape).Idx → EReal) (c : (⟨1, ![N]⟩ : Shape).Idx → EReal)
    (h : (⟨2, ![N, K]⟩ : Shape).Idx → EReal) (wl : (⟨2, ![K, D]⟩ : Shape).Idx → EReal)
    (b : (⟨1, ![D]⟩ : Shape).Idx → EReal) (wr : (⟨2, ![K, D]⟩ : Shape).Idx → EReal) (r : Fin N) (j : Fin D) :
    layR A c h wl b wr (ix2 r j) = linR A c h wl b wr r j := rfl

end Whole

section PoolSpec

/-- Node number of position r in tile t, for 25 tiles of 2000 nodes. -/
def node (t : Fin 25) (r : Fin 2000) : Fin 50000 := ⟨t.val * 2000 + r.val, by have := t.isLt; have := r.isLt; omega⟩

/-- The membership entry of a node whose graph number is the word b, for graph g: 1 when b is g, else 0. -/
def sel (b : BitVec 32) (g : Fin 64) : EReal := if b = BitVec.ofNat 32 g.val then 1 else 0

/-- The per-tile tables: in tile t, the product of the transposed membership table with the rows H. -/
def poolTiles (bt : (⟨2, ![50000, 1]⟩ : Shape).Idx → BitVec 32) (H : (⟨2, ![50000, 128]⟩ : Shape).Idx → EReal) :
    (⟨3, ![25, 64, 128]⟩ : Shape).Idx → EReal :=
  of3 fun t g j => ∑ r : Fin 2000, sel (bt (ix2 (node t r) 0)) g * H (ix2 (node t r) j)

theorem poolTiles_apply (bt : (⟨2, ![50000, 1]⟩ : Shape).Idx → BitVec 32) (H : (⟨2, ![50000, 128]⟩ : Shape).Idx → EReal)
    (t : Fin 25) (g : Fin 64) (j : Fin 128) :
    poolTiles bt H (ix3 t g j) = ∑ r : Fin 2000, sel (bt (ix2 (node t r) 0)) g * H (ix2 (node t r) j) := rfl

end PoolSpec

end Cert.Sage

end
-- ==== Proof.KDefs.lean ====
import proofs.«407286_j335007449146_3_alg».proof.Proof.Gen.KernelIdeal
import proofs.«407286_j335007449146_3_alg».proof.Proof.SageMath
import Idealize.ShloMosaic.PureOps.Ideal

/-!
# The kernel program's values, named

Every array the kernel program computes on the way to its result, as a function of the program's arguments, read
over the extended reals: the edge table's two rows, the in-degree of every node raised to at least one and its
reciprocal column, the neighbour aggregate of a table (gather the source rows, add them onto the destination rows),
the three layers, the per-tile per-graph sums, and the result (the tiles' sum divided by the graphs' node counts
raised to at least one).
-/

noncomputable section

namespace Cert.KernelIdeal.KV

open Cert.KernelIdeal Cert.KernelIdeal.Gen Idealize.ShloMosaic Idealize.ShloMosaic.ValueIdx

/-- A table in the narrower float format: the same numbers over the extended reals. -/
def bf {s : Shape} (x : Vec Ideal s .f32) : Vec Ideal s .bf16 := truncf (F := Ideal) .bf16 x bitsLt_bf16_f32

/-- A bias vector as a one-row table. -/
def row (b : Vec Ideal S128 .f32) : Vec Ideal S1x128 .f32 := shapeCast S1x128 b shapeCasts_S128_S1x128

/-- The edges' source nodes: row 0 of the edge table. -/
def src (e : Vec Ideal S2x600000 .i32) : Vec Ideal S600000 .i32 :=
  shapeCast S600000 (extractStridedSlice S1x600000 ![0, 0] e slices_S2x600000_S1x600000_0_0) shapeCasts_S1x600000_S600000

/-- The edges' destination nodes: row 1 of the edge table. -/
def dst (e : Vec Ideal S2x600000 .i32) : Vec Ideal S600000 .i32 :=
  shapeCast S600000 (extractStridedSlice S1x600000 ![1, 0] e slices_S2x600000_S1x600000_1_0) shapeCasts_S1x600000_S600000

/-- The source nodes as a column, a negative number counted from the end. -/
def srcCol (e : Vec Ideal S2x600000 .i32) : Vec Ideal S600000x1 .i32 :=
  broadcastInDim S600000x1 ![0] bcast_S600000_S600000x1_0
    (select (cmpi .slt (src e) (broadcastInDim S600000 ![] bcast_S_S600000 (constantI S_ 32 0#32)))
      (addi (src e) (broadcastInDim S600000 ![] bcast_S_S600000 (constantI S_ 32 50000#32))) (src e))

/-- The destination nodes as a column. -/
def dstCol (e : Vec Ideal S2x600000 .i32) : Vec Ideal S600000x1 .i32 :=
  broadcastInDim S600000x1 ![0] bcast_S600000_S600000x1_0 (dst e)

/-- Every node's in-degree, raised to at least one. -/
def cnt (e : Vec Ideal S2x600000 .i32) : Vec Ideal S50000 .f32 :=
  maximumf (broadcastInDim S50000 ![] bcast_S_S50000 (id (constant (F := Ideal) S_ .f32 0x3F800000#32)))
    (Host.scatterAdd scatter_S50000_S600000x1_S600000_n_0_0_1
      (broadcastInDim S50000 ![] bcast_S_S50000 (constant (F := Ideal) S_ .f32 0x00000000#32)) (dstCol e)
      (broadcastInDim S600000 ![] bcast_S_S600000 (constant (F := Ideal) S_ .f32 0x3F800000#32)))

/-- The reciprocals of those, as a column. -/
def inv (e : Vec Ideal S2x600000 .i32) : Vec Ideal S50000x1 .bf16 :=
  truncf (F := Ideal) .bf16 (shapeCast S50000x1
    (Host.divf (broadcastInDim S50000 ![] bcast_S_S50000 (constant (F := Ideal) S_ .f32 0x3F800000#32)) (cnt e))
    shapeCasts_S50000_S50000x1) bitsLt_bf16_f32

/-- The neighbour aggregate of a 64-column table: source rows gathered, added onto destination rows. -/
def agg64 (e : Vec Ideal S2x600000 .i32) (tbl : Vec Ideal S50000x64 .bf16) : Vec Ideal S50000x64 .bf16 :=
  truncf (F := Ideal) .bf16 (Host.scatterAdd scatter_S50000x64_S600000x1_S600000x64_1_0_0_1
    (broadcastInDim S50000x64 ![] bcast_S_S50000x64 (constant (F := Ideal) S_ .f32 0x00000000#32)) (dstCol e)
    (extf (F := Ideal) .f32 (Host.gather gather_S50000x64_S600000x1_S600000x64_1_0_n_n_0_1_164 tbl (srcCol e)) bitsLt_bf16_f32))
    bitsLt_bf16_f32

/-- The neighbour aggregate of a 128-column table. -/
def agg128 (e : Vec Ideal S2x600000 .i32) (tbl : Vec Ideal S50000x128 .bf16) : Vec Ideal S50000x128 .bf16 :=
  truncf (F := Ideal) .bf16 (Host.scatterAdd scatter_S50000x128_S600000x1_S600000x128_1_0_0_1
    (broadcastInDim S50000x128 ![] bcast_S_S50000x128 (constant (F := Ideal) S_ .f32 0x00000000#32)) (dstCol e)
    (extf (F := Ideal) .f32 (Host.gather gather_S50000x128_S600000x1_S600000x128_1_0_n_n_0_1_1128 tbl (srcCol e)) bitsLt_bf16_f32))
    bitsLt_bf16_f32

/-- The first layer's output. -/
def h1 (x : Vec Ideal S50000x64 .f32) (e : Vec Ideal S2x600000 .i32) (wl1 : Vec Ideal S64x128 .f32)
    (b1 : Vec Ideal S128 .f32) (wr1 : Vec Ideal S64x128 .f32) : Vec Ideal S50000x128 .bf16 :=
  Cert.Sage.reluT (Cert.Sage.layK (N := 50000) (K := 64) (D := 128) (agg64 e (bf x)) (inv e) (bf x) (bf wl1) (row b1) (bf wr1))

/-- The second layer's output. -/
def h2 (x : Vec Ideal S50000x64 .f32) (e : Vec Ideal S2x600000 .i32) (wl1 : Vec Ideal S64x128 .f32)
    (b1 : Vec Ideal S128 .f32) (wr1 : Vec Ideal S64x128 .f32) (wl2 : Vec Ideal S128x128 .f32)
    (b2 : Vec Ideal S128 .f32) (wr2 : Vec Ideal S128x128 .f32) : Vec Ideal S50000x128 .bf16 :=
  Cert.Sage.reluT (Cert.Sage.layK (N := 50000) (K := 128) (D := 128) (agg128 e (h1 x e wl1 b1 wr1)) (inv e)
    (h1 x e wl1 b1 wr1) (bf wl2) (row b2) (bf wr2))

/-- The graph numbers as a column. -/
def btCol (bt : Vec Ideal S50000 .i32) : Vec Ideal S50000x1 .i32 := shapeCast S50000x1 bt shapeCasts_S50000_S50000x1

/-- The per-tile per-graph sums of the third layer's rows. -/
def part (x : Vec Ideal S50000x64 .f32) (e : Vec Ideal S2x600000 .i32) (bt : Vec Ideal S50000 .i32)
    (wl1 : Vec Ideal S64x128 .f32) (b1 : Vec Ideal S128 .f32) (wr1 : Vec Ideal S64x128 .f32)
    (wl2 : Vec Ideal S128x128 .f32) (b2 : Vec Ideal S128 .f32) (wr2 : Vec Ideal S128x128 .f32)
    (wl3 : Vec Ideal S128x128 .f32) (b3 : Vec Ideal S128 .f32) (wr3 : Vec Ideal S128x128 .f32) :
    Vec Ideal S25x64x128 .f32 :=
  Cert.Sage.poolTiles (btCol bt)
    (Cert.Sage.layK (N := 50000) (K := 128) (D := 128) (agg128 e (h2 x e wl1 b1 wr1 wl2 b2 wr2)) (inv e)
      (h2 x e wl1 b1 wr1 wl2 b2 wr2) (bf wl3) (row b3) (bf wr3))

/-- Every graph's node count, raised to at least one. -/
def cntG (bt : Vec Ideal S50000 .i32) : Vec Ideal S64 .f32 :=
  maximumf (broadcastInDim S64 ![] bcast_S_S64 (id (constant (F := Ideal) S_ .f32 0x3F800000#32)))
    (Host.scatterAdd scatter_S64_S50000x1_S50000_n_0_0_1
      (broadcastInDim S64 ![] bcast_S_S64 (constant (F := Ideal) S_ .f32 0x00000000#32))
      (broadcastInDim S50000x1 ![0] bcast_S50000_S50000x1_0 bt)
      (broadcastInDim S50000 ![] bcast_S_S50000 (constant (F := Ideal) S_ .f32 0x3F800000#32)))

/-- The tiles' sum divided by the graphs' node counts: what a table of per-tile sums is turned into. -/
def fin (P : Vec Ideal S25x64x128 .f32) (bt : Vec Ideal S50000 .i32) : Vec Ideal S64x128 .f32 :=
  Host.divf (Host.reduceAdd P (constant (F := Ideal) S_ .f32 0x00000000#32) reducesTo_S25x64x128_S64x128_d0 h_S_)
    (broadcastInDim S64x128 ![0, 1] bcast_S64x1_S64x128_0_1 (broadcastInDim S64x1 ![0] bcast_S64_S64x1_0 (cntG bt)))

/-- The kernel program's result. -/
def out (x : Vec Ideal S50000x64 .f32) (e : Vec Ideal S2x600000 .i32) (bt : Vec Ideal S50000 .i32)
    (wl1 : Vec Ideal S64x128 .f32) (b1 : Vec Ideal S128 .f32) (wr1 : Vec Ideal S64x128 .f32)
    (wl2 : Vec Ideal S128x128 .f32) (b2 : Vec Ideal S128 .f32) (wr2 : Vec Ideal S128x128 .f32)
    (wl3 : Vec Ideal S128x128 .f32) (b3 : Vec Ideal S128 .f32) (wr3 : Vec Ideal S128x128 .f32) :
    Vec Ideal S64x128 .f32 :=
  fin (part x e bt wl1 b1 wr1 wl2 b2 wr2 wl3 b3 wr3) bt

end Cert.KernelIdeal.KV

end
-- ==== Proof.KPool.lean ====
import proofs.«407286_j335007449146_3_alg».proof.Proof.Gen.KernelIdeal.Frame
import proofs.«407286_j335007449146_3_alg».proof.Proof.SageMath
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! ## The two products' index bookkeeping

Rows times a weight matrix contracts the left operand's axis 1 with the right operand's axis 0. The product of
the transposed membership table with the rows contracts axis 0 of both. -/

theorem lhs_rowsW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_rowsW_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_rowsW_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_rowsW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Rows times a weight matrix, into a zero table, at an entry: the sum over the shared axis. -/
theorem rowsW_apply (L : FVec Ideal S2000x128 .bf16) (R : FVec Ideal S128x128 .bf16) (r : Fin 2000) (j : Fin 128) :
    matmul dot_S2000x128_S128x128_S2000x128_1_0_0_1_n_n none L R (constant S2000x128 .f32 0x00000000#32) (ix2 r j)
      = ∑ k : Fin 128, L (ix2 r k) * R (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_rowsW_0 _ _
    | ⟨1, _⟩ => exact (lhs_rowsW_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_rowsW_0 _ _).trans hk
    | ⟨1, _⟩ => exact rhs_rowsW_1 _ _)
  rw [el, er]

theorem lhs_memT_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_memT_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_memT_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_memT_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The transposed membership table times the rows, into a zero table, at entry (g, j): the sum over the tile's positions. -/
theorem memT_apply (L : FVec Ideal S2000x64 .f32) (R : FVec Ideal S2000x128 .f32) (g : Fin 64) (j : Fin 128) :
    matmul dot_S2000x64_S2000x128_S64x128_0_0_1_1_n_n (some .fp32) L R (constant S64x128 .f32 0x00000000#32) (ix2 g j)
      = ∑ r : Fin 2000, L (ix2 r g) * R (ix2 r j) := by
  simp only [matmul]
  rw [Ideal.matmul_constant_zero_apply, ← Equiv.sum_comp (ValueIdx.contrEquiv1 dot_S2000x64_S2000x128_S64x128_0_0_1_1_n_n 2000 rfl rfl).symm]
  refine Finset.sum_congr rfl fun k _ => ?_
  have hk := ValueIdx.contrEquiv1_symm_val dot_S2000x64_S2000x128_S64x128_0_0_1_1_n_n 2000 rfl rfl k
  have el : dot_S2000x64_S2000x128_S64x128_0_0_1_1_n_n.lhsIdx (ix2 g j) ((ValueIdx.contrEquiv1 dot_S2000x64_S2000x128_S64x128_0_0_1_1_n_n 2000 rfl rfl).symm k) = ix2 k g := funext fun a => Fin.ext (by
    match a with
    | ⟨0, _⟩ => exact (lhs_memT_0 _ _).trans hk
    | ⟨1, _⟩ => exact lhs_memT_1 _ _)
  have er : dot_S2000x64_S2000x128_S64x128_0_0_1_1_n_n.rhsIdx (ix2 g j) ((ValueIdx.contrEquiv1 dot_S2000x64_S2000x128_S64x128_0_0_1_1_n_n 2000 rfl rfl).symm k) = ix2 k j := funext fun a => Fin.ext (by
    match a with
    | ⟨0, _⟩ => exact (rhs_memT_0 _ _).trans hk
    | ⟨1, _⟩ => exact rhs_memT_1 _ _)
  rw [el, er]

/-! ## The broadcasts and the membership entry -/

/-- A column copied across the lanes reads the column at the row. -/
theorem col_lanes_apply {α : Type} {b : ℕ} (v : (⟨2, ![2000, 1]⟩ : Shape).Idx → α)
    (h : (⟨2, ![2000, 1]⟩ : Shape).Broadcasts ⟨2, ![2000, b]⟩) (r : Fin 2000) (q : Fin b) :
    broadcastTo ⟨2, ![2000, b]⟩ v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- The membership entry on words: the comparison's bit, widened and converted, is 1 when the words agree and 0 otherwise. -/
theorem mem_word (b : BitVec 32) (g : Fin 64) :
    (FloatOps.sitofp (F := Ideal) .f32 ((IntOp.cmpi .eq b (BitVec.ofNat 32 g.val)).setWidth 32) : EReal) = Cert.Sage.sel b g := by
  unfold Cert.Sage.sel IntOp.cmpi
  by_cases h : b = BitVec.ofNat 32 g.val
  · rw [if_pos h, show (b == BitVec.ofNat 32 g.val) = true from by rw [h]; exact beq_self_eq_true _]
    show (((((BitVec.ofBool true).setWidth 32).toInt : ℤ) : ℝ) : EReal) = 1
    rw [show ((BitVec.ofBool true).setWidth 32).toInt = 1 from by decide]
    norm_num
  · rw [if_neg h, show (b == BitVec.ofNat 32 g.val) = false from by simpa using h]
    show (((((BitVec.ofBool false).setWidth 32).toInt : ℤ) : ℝ) : EReal) = 0
    rw [show ((BitVec.ofBool false).setWidth 32).toInt = 0 from by decide]
    norm_num

/-- An integer comparison of two vectors at an index compares the elements. -/
theorem cmpi_at {s : Shape} {w : Nat} (p : CmpIPredicate) (x y : IVec s w) (i : s.Idx) :
    cmpi p x y i = IntOp.cmpi p (x i) (y i) := rfl

/-- The region's body at an entry of its one table: the transposed membership table of the tile's 2000 positions
    times the third layer's rows (scaled aggregate times Wl, plus features times Wr, plus the bias row). -/
theorem pool_entry (x0 : Vec Ideal S2000x128 .bf16) (x1 : Vec Ideal S2000x1 .bf16) (x2 : Vec Ideal S2000x128 .bf16)
    (wl : Vec Ideal S128x128 .bf16) (wr : Vec Ideal S128x128 .bf16) (bl : Vec Ideal S1x128 .f32) (bt : Vec Ideal S2000x1 .i32)
    (u : Fin 1) (g : Fin 64) (j : Fin 128) :
    k2_pay1 (F := Ideal) x0 x1 x2 wl wr bl bt (ix3 u g j)
      = ∑ r : Fin 2000, Cert.Sage.sel (bt (ix2 r 0)) g
          * Cert.Sage.linK (N := 2000) (K := 128) (D := 128) x0 x1 x2 wl bl wr r j := by
  unfold k2_pay1
  simp only [shapeCast_self]
  rw [shapeCast_ab_1ab_apply, memT_apply]
  refine Finset.sum_congr rfl fun r _ => ?_
  rw [sitofp_apply, extui_apply, cmpi_at, col_lanes_apply, broadcastTo_1b_ab_apply, iota_single_apply]
  rw [addf_apply, addf_apply, rowsW_apply, rowsW_apply, broadcastTo_1b_ab_apply]
  simp only [truncf_apply, mulf_apply, extf_apply, col_lanes_apply]
  show FloatOps.sitofp (F := Ideal) .f32 (BitVec.setWidth 32 (IntOp.cmpi .eq (bt (ix2 r 0)) (BitVec.ofNat 32 g.val))) * _ = _
  rw [mem_word]
  rfl

/-! ## The grid: tile t is point t -/

/-- The tile of a grid point: the 25 points are the 25 tiles in order. -/
def tileOf (t : Fin cfg2.N) : Fin 25 := t.cast N_2

theorem tileOf_val (t : Fin cfg2.N) : (tileOf t).val = t.val := rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps, decided over the grid: the four node-indexed inputs and the output move with the point along
    their first axis; the two weight matrices and the bias row stay at block zero. -/
theorem point_blocks : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

/-! ## Each input block, read from the array the region found -/

/-- Position r of the aggregate's block at point t is node (t, r) of the aggregate. -/
theorem agg_block (c : Dev nD) (t : Fin cfg2.N) (r : Fin 2000) (k : Fin 128) :
    (iblk2 V c 0 t : Vec Ideal S2000x128 .bf16) (ix2 r k)
      = (V c (Pipeline.arrRef spec2 0) : S50000x128.Idx → Elt Ideal .bf16) (ix2 (Cert.Sage.node (tileOf t) r) k) := by
  obtain ⟨e0, e1, -⟩ := point_blocks t
  unfold iblk2
  rw [View.read_apply]
  show V c (Pipeline.arrRef spec2 0) _ = V c (Pipeline.arrRef spec2 0) _
  congr 1
  funext a
  apply Fin.ext
  match a with
  | ⟨0, _⟩ => show win2_0.index t 0 * 2000 + 1 * r.val = t.val * 2000 + r.val; rw [e0]; omega
  | ⟨1, _⟩ => show win2_0.index t 1 * 128 + 1 * k.val = k.val; rw [e1]; omega

/-- Position r of the reciprocal column's block at point t is node (t, r) of the column. -/
theorem inv_block (c : Dev nD) (t : Fin cfg2.N) (r : Fin 2000) :
    (iblk2 V c 1 t : Vec Ideal S2000x1 .bf16) (ix2 r (0 : Fin 1))
      = (V c (Pipeline.arrRef spec2 1) : S50000x1.Idx → Elt Ideal .bf16) (ix2 (Cert.Sage.node (tileOf t) r) (0 : Fin 1)) := by
  obtain ⟨-, -, e0, e1, -⟩ := point_blocks t
  unfold iblk2
  rw [View.read_apply]
  show V c (Pipeline.arrRef spec2 1) _ = V c (Pipeline.arrRef spec2 1) _
  congr 1
  funext a
  apply Fin.ext
  match a with
  | ⟨0, _⟩ => show win2_1.index t 0 * 2000 + 1 * r.val = t.val * 2000 + r.val; rw [e0]; omega
  | ⟨1, _⟩ => show win2_1.index t 1 * 1 + 1 * 0 = 0; rw [e1]

/-- Position r of the features' block at point t is node (t, r) of the features. -/
theorem feat_block (c : Dev nD) (t : Fin cfg2.N) (r : Fin 2000) (k : Fin 128) :
    (iblk2 V c 2 t : Vec Ideal S2000x128 .bf16) (ix2 r k)
      = (V c (Pipeline.arrRef spec2 2) : S50000x128.Idx → Elt Ideal .bf16) (ix2 (Cert.Sage.node (tileOf t) r) k) := by
  obtain ⟨-, -, -, -, e0, e1, -⟩ := point_blocks t
  unfold iblk2
  rw [View.read_apply]
  show V c (Pipeline.arrRef spec2 2) _ = V c (Pipeline.arrRef spec2 2) _
  congr 1
  funext a
  apply Fin.ext
  match a with
  | ⟨0, _⟩ => show win2_2.index t 0 * 2000 + 1 * r.val = t.val * 2000 + r.val; rw [e0]; omega
  | ⟨1, _⟩ => show win2_2.index t 1 * 128 + 1 * k.val = k.val; rw [e1]; omega

/-- The left weight matrix's block at every point is the whole matrix. -/
theorem wl_block (c : Dev nD) (t : Fin cfg2.N) (k : Fin 128) (j : Fin 128) :
    (iblk2 V c 3 t : Vec Ideal S128x128 .bf16) (ix2 k j)
      = (V c (Pipeline.arrRef spec2 3) : S128x128.Idx → Elt Ideal .bf16) (ix2 k j) := by
  obtain ⟨-, -, -, -, -, -, e0, e1, -⟩ := point_blocks t
  unfold iblk2
  rw [View.read_apply]
  show V c (Pipeline.arrRef spec2 3) _ = V c (Pipeline.arrRef spec2 3) _
  congr 1
  funext a
  apply Fin.ext
  match a with
  | ⟨0, _⟩ => show win2_3.index t 0 * 128 + 1 * k.val = k.val; rw [e0]; omega
  | ⟨1, _⟩ => show win2_3.index t 1 * 128 + 1 * j.val = j.val; rw [e1]; omega

/-- The bias row's block at every point is the whole row. -/
theorem bias_block (c : Dev nD) (t : Fin cfg2.N) (j : Fin 128) :
    (iblk2 V c 4 t : Vec Ideal S1x128 .f32) (ix2 (0 : Fin 1) j)
      = (V c (Pipeline.arrRef spec2 4) : S1x128.Idx → Elt Ideal .f32) (ix2 (0 : Fin 1) j) := by
  obtain ⟨-, -, -, -, -, -, -, -, e0, e1, -⟩ := point_blocks t
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * 0 = 0; rw [e0]
  | ⟨1, _⟩ => show win2_4.index t 1 * 128 + 1 * j.val = j.val; rw [e1]; omega

/-- The right weight matrix's block at every point is the whole matrix. -/
theorem wr_block (c : Dev nD) (t : Fin cfg2.N) (k : Fin 128) (j : Fin 128) :
    (iblk2 V c 5 t : Vec Ideal S128x128 .bf16) (ix2 k j)
      = (V c (Pipeline.arrRef spec2 5) : S128x128.Idx → Elt Ideal .bf16) (ix2 k j) := by
  obtain ⟨-, -, -, -, -, -, -, -, -, -, e0, e1, -⟩ := point_blocks t
  unfold iblk2
  rw [View.read_apply]
  show V c (Pipeline.arrRef spec2 5) _ = V c (Pipeline.arrRef spec2 5) _
  congr 1
  funext a
  apply Fin.ext
  match a with
  | ⟨0, _⟩ => show win2_5.index t 0 * 128 + 1 * k.val = k.val; rw [e0]; omega
  | ⟨1, _⟩ => show win2_5.index t 1 * 128 + 1 * j.val = j.val; rw [e1]; omega

/-- Position r of the graph numbers' block at point t is node (t, r) of the graph numbers. -/
theorem graph_block (c : Dev nD) (t : Fin cfg2.N) (r : Fin 2000) :
    (iblk2 V c 6 t : Vec Ideal S2000x1 .i32) (ix2 r (0 : Fin 1))
      = (V c (Pipeline.arrRef spec2 6) : S50000x1.Idx → Elt Ideal .i32) (ix2 (Cert.Sage.node (tileOf t) r) (0 : Fin 1)) := by
  obtain ⟨-, -, -, -, -, -, -, -, -, -, -, -, e0, e1, -⟩ := point_blocks t
  unfold iblk2
  rw [View.read_apply]
  show V c (Pipeline.arrRef spec2 6) _ = V c (Pipeline.arrRef spec2 6) _
  congr 1
  funext a
  apply Fin.ext
  match a with
  | ⟨0, _⟩ => show win2_6.index t 0 * 2000 + 1 * r.val = t.val * 2000 + r.val; rw [e0]; omega
  | ⟨1, _⟩ => show win2_6.index t 1 * 1 + 1 * 0 = 0; rw [e1]

/-- The layer's row at position r of point t's blocks is its row at node (t, r) of the arrays. -/
theorem row_block (c : Dev nD) (t : Fin cfg2.N) (r : Fin 2000) (j : Fin 128) :
    Cert.Sage.linK (N := 2000) (K := 128) (D := 128) (iblk2 V c 0 t) (iblk2 V c 1 t) (iblk2 V c 2 t) (iblk2 V c 3 t)
        (iblk2 V c 4 t) (iblk2 V c 5 t) r j
      = Cert.Sage.linK (N := 50000) (K := 128) (D := 128) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (Cert.Sage.node (tileOf t) r) j := by
  unfold Cert.Sage.linK
  simp only [agg_block, inv_block, feat_block, wl_block, bias_block, wr_block]

/-! ## What the region leaves in its output array -/

/-- The per-tile tables of the arrays the region found. -/
abbrev tiles (c : Dev nD) : S25x64x128.Idx → EReal :=
  Cert.Sage.poolTiles (V c (Pipeline.arrRef spec2 6))
    (Cert.Sage.layK (N := 50000) (K := 128) (D := 128)
      (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5)))

/-- What point t writes back is tile t's table. -/
theorem tile_written (c : Dev nD) (t : Fin cfg2.N) :
    (dat2 (F := Ideal) V c).flushed 7 t = ((cfg2.win 7).blk t).view.read (Elt Ideal) (tiles V c) := by
  show (cfg2.win 7).cut (grid2.coords t) ((dat2 V c).after 7 t) = _
  rw [after2_7]
  unfold out2_7
  rw [View.canon_unit_zero zero3]
  simp only [View.ld_unit_zero (S := S2000x128) zero2, View.ld_unit_zero (S := S2000x1) zero2,
    View.ld_unit_zero (S := S128x128) zero2, View.ld_unit_zero (S := S1x128) zero2]
  refine funext fun (y : S1x64x128.Idx) => ?_
  obtain ⟨u, g, j, rfl⟩ : ∃ (u : Fin 1) (g : Fin 64) (j : Fin 128), y = ix3 u g j :=
    ⟨y 0, y 1, y 2, eq_ix3 (n0 := 1) (n1 := 64) (n2 := 128) y⟩
  show k2_pay1 (F := Ideal) (iblk2 V c 0 t) (iblk2 V c 1 t) (iblk2 V c 2 t) (iblk2 V c 3 t) (iblk2 V c 5 t) (iblk2 V c 4 t)
      (iblk2 V c 6 t) (ix3 u g j) = tiles V c (((cfg2.win 7).blk t).view.emb (ix3 u g j))
  have hemb : ((cfg2.win 7).blk t).view.emb (ix3 u g j) = (ix3 (tileOf t) g j : S25x64x128.Idx) := by
    obtain ⟨-, -, -, -, -, -, -, -, -, -, -, -, -, -, o0, o1, o2⟩ := point_blocks t
    have hu : u.val < 1 := u.isLt
    funext a
    apply Fin.ext
    match a with
    | ⟨0, _⟩ => show win2_7.index t 0 * 1 + 1 * u.val = t.val; rw [o0]; omega
    | ⟨1, _⟩ => show win2_7.index t 1 * 64 + 1 * g.val = g.val; rw [o1]; omega
    | ⟨2, _⟩ => show win2_7.index t 2 * 128 + 1 * j.val = j.val; rw [o2]; omega
  rw [hemb]
  show _ = Cert.Sage.poolTiles _ _ (ix3 (tileOf t) g j)
  rw [Cert.Sage.poolTiles_apply]
  refine (pool_entry (iblk2 V c 0 t) (iblk2 V c 1 t) (iblk2 V c 2 t) (iblk2 V c 3 t) (iblk2 V c 5 t) (iblk2 V c 4 t)
    (iblk2 V c 6 t) u g j).trans ?_
  refine Finset.sum_congr rfl fun r _ => ?_
  rw [graph_block, Cert.Sage.layK_apply, row_block]

/-- An index of the output array is in point t's block iff each coordinate is in the block's range on its axis. -/
theorem mem_tile (t : Fin cfg2.N) (i : S25x64x128.Idx) :
    i ∈ ((cfg2.win 7).blk t).view.set ↔ ∀ a : Fin 3, win2_7.index t a * S1x64x128.size a ≤ (i a).val
      ∧ (i a).val < win2_7.index t a * S1x64x128.size a + S1x64x128.size a := by
  show i ∈ ((View.whole main_v62).slice (win2_7.rect t)).set ↔ _
  rw [View.set_slice_whole, Rect.mem_set_unit]
  exact Iff.rfl

/-- The tiles cover the output array: the index (t, g, j) lies in point t's block. -/
theorem tiles_cover (i : S25x64x128.Idx) :
    ∃ t : Fin cfg2.N, (cfg2.win 7).flush t = true ∧ i ∈ ((cfg2.win 7).blk t).view.set := by
  have h0 : (i 0).val < 25 := (i 0).isLt
  have h1 : (i 1).val < 64 := (i 1).isLt
  have h2 : (i 2).val < 128 := (i 2).isLt
  have hN : cfg2.N = 25 := N_2
  refine ⟨⟨(i 0).val, by rw [hN]; exact h0⟩, flush2_7 _, ?_⟩
  rw [mem_tile]
  obtain ⟨-, -, -, -, -, -, -, -, -, -, -, -, -, -, o0, o1, o2⟩ := point_blocks ⟨(i 0).val, by rw [hN]; exact h0⟩
  intro a
  match a with
  | ⟨0, _⟩ =>
    show win2_7.index ⟨(i 0).val, _⟩ 0 * 1 ≤ (i 0).val ∧ (i 0).val < win2_7.index ⟨(i 0).val, _⟩ 0 * 1 + 1
    rw [o0]; show (i 0).val * 1 ≤ (i 0).val ∧ (i 0).val < (i 0).val * 1 + 1; omega
  | ⟨1, _⟩ =>
    show win2_7.index ⟨(i 0).val, _⟩ 1 * 64 ≤ (i 1).val ∧ (i 1).val < win2_7.index ⟨(i 0).val, _⟩ 1 * 64 + 64
    rw [o1]; omega
  | ⟨2, _⟩ =>
    show win2_7.index ⟨(i 0).val, _⟩ 2 * 128 ≤ (i 2).val ∧ (i 2).val < win2_7.index ⟨(i 0).val, _⟩ 2 * 128 + 128
    rw [o2]; omega

/-- What the third region leaves in its output array: tile t's table is the transposed membership table of the
    tile's nodes times the third layer's rows (no raising to zero) of the region's input arrays as it found them. -/
theorem region2_value (c : Dev nD) :
    (dat2 (F := Ideal) V c).arrAt 7 cfg2.N
      = Cert.Sage.poolTiles (V c (Pipeline.arrRef spec2 6))
          (Cert.Sage.layK (N := 50000) (K := 128) (D := 128)
            (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5))) :=
  (dat2 (F := Ideal) V c).arrAt_eq_of_cover 7 (tiles V c) (fun t _ => tile_written V c t) tiles_cover

end Cert.KernelIdeal.Gen

end
-- ==== Proof.KLayer.lean ====
import proofs.«407286_j335007449146_3_alg».proof.Proof.Gen.KernelIdeal.Frame
import proofs.«407286_j335007449146_3_alg».proof.Proof.SageMath
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## Layout facts -/

/-- The offsets of a whole-block access are all zero. -/
theorem offsets_zero : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product with 64 input features -/

theorem lhs64_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs64_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs64_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs64_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A block product into the zero accumulator, read at row `p` and column `q`, is the sum over the 64 features. -/
theorem matmul64_apply (l : FVec Ideal S10000x64 .bf16) (r : FVec Ideal S64x128 .bf16) (p : Fin 10000) (q : Fin 128) :
    matmul dot_S10000x64_S64x128_S10000x128_1_0_0_1_n_n none l r (constant (F := Ideal) S10000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The body's one value, read at row `p` and column `q` of the block: the layer of the block's rows, bias last,
    raised to zero where negative. -/
theorem pay64_apply (x0 : Vec Ideal S10000x64 .bf16) (x1 : Vec Ideal S10000x1 .bf16) (x2 : Vec Ideal S10000x64 .bf16)
    (x3 : Vec Ideal S64x128 .bf16) (x5 : Vec Ideal S64x128 .bf16) (x4 : Vec Ideal S1x128 .f32) (p : Fin 10000) (q : Fin 128) :
    k0_pay1 (F := Ideal) x0 x1 x2 x3 x5 x4 (ix2 p q)
      = max (((∑ k : Fin 64, (x0 (ix2 p k) * x1 (ix2 p 0)) * x3 (ix2 k q)) + ∑ k : Fin 64, x2 (ix2 p k) * x5 (ix2 k q))
          + x4 (ix2 0 q)) 0 := by
  unfold k0_pay1
  simp only [shapeCast_self]
  rw [truncf_apply, maximumf_apply, addf_apply, addf_apply, matmul64_apply, matmul64_apply,
    broadcastTo_1b_ab_apply, broadcast_apply]
  simp only [truncf_apply, mulf_apply, extf_apply, broadcastTo_a1_ab_apply]
  exact congrArg (max _) Ideal.ofBits_zero_f32

/-- The layer's row `r` from a block's row `p`: if the block's rows of the aggregate, of the reciprocal column and of the
    features are row `r` of the arrays, and its weight and bias blocks are the arrays, the body's value at `(p, q)` is
    the layer at `(r, q)`, raised to zero where negative. -/
theorem point64 (A : S50000x64.Idx → EReal) (inv : S50000x1.Idx → EReal) (h : S50000x64.Idx → EReal)
    (wl : S64x128.Idx → EReal) (bl : S1x128.Idx → EReal) (wr : S64x128.Idx → EReal)
    (x0 : Vec Ideal S10000x64 .bf16) (x1 : Vec Ideal S10000x1 .bf16) (x2 : Vec Ideal S10000x64 .bf16)
    (x3 : Vec Ideal S64x128 .bf16) (x5 : Vec Ideal S64x128 .bf16) (x4 : Vec Ideal S1x128 .f32)
    (p : Fin 10000) (q : Fin 128) (r : Fin 50000)
    (h0 : ∀ k : Fin 64, x0 (ix2 p k) = A (ix2 r k)) (h1 : x1 (ix2 p 0) = inv (ix2 r 0))
    (h2 : ∀ k : Fin 64, x2 (ix2 p k) = h (ix2 r k)) (h3 : ∀ k : Fin 64, x3 (ix2 k q) = wl (ix2 k q))
    (h4 : x4 (ix2 0 q) = bl (ix2 0 q)) (h5 : ∀ k : Fin 64, x5 (ix2 k q) = wr (ix2 k q)) :
    k0_pay1 (F := Ideal) x0 x1 x2 x3 x5 x4 (ix2 p q)
      = Cert.Sage.reluT (Cert.Sage.layK (N := 50000) (K := 64) (D := 128) A inv h wl bl wr) (ix2 r q) := by
  rw [pay64_apply]
  show _ = max (Cert.Sage.linK A inv h wl bl wr r q) 0
  unfold Cert.Sage.linK
  simp only [h0, h1, h2, h3, h4, h5]

/-! ## The first region's blocks -/

/-- The index maps over the five points: the three row-blocked inputs and the output move down the rows with the
    point, the weights and the bias stay. -/
theorem index0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the aggregate's block at point `t` is row `t · 10000 + p` of the aggregate. -/
theorem blk0_aggr (c : Dev nD) (t : Fin cfg0.N) (p : Fin 10000) (k : Fin 64) (r : Fin 50000)
    (hr : r.val = t.val * 10000 + p.val) :
    (iblk0 V c 0 t : Vec Ideal S10000x64 .bf16) (ix2 p k)
      = (V c (Pipeline.arrRef spec0 0) : S50000x64.Idx → Elt Ideal .bf16) (ix2 r k) := by
  obtain ⟨e0, e1, -⟩ := index0_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row `p` of the reciprocal column's block at point `t` is row `t · 10000 + p` of the column. -/
theorem blk0_inv (c : Dev nD) (t : Fin cfg0.N) (p : Fin 10000) (r : Fin 50000)
    (hr : r.val = t.val * 10000 + p.val) :
    (iblk0 V c 1 t : Vec Ideal S10000x1 .bf16) (ix2 p 0)
      = (V c (Pipeline.arrRef spec0 1) : S50000x1.Idx → Elt Ideal .bf16) (ix2 r 0) := by
  obtain ⟨-, -, e0, e1, -⟩ := index0_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 1 + 1 * 0 = 0; rw [e1]

/-- Row `p` of the features' block at point `t` is row `t · 10000 + p` of the features. -/
theorem blk0_feat (c : Dev nD) (t : Fin cfg0.N) (p : Fin 10000) (k : Fin 64) (r : Fin 50000)
    (hr : r.val = t.val * 10000 + p.val) :
    (iblk0 V c 2 t : Vec Ideal S10000x64 .bf16) (ix2 p k)
      = (V c (Pipeline.arrRef spec0 2) : S50000x64.Idx → Elt Ideal .bf16) (ix2 r k) := by
  obtain ⟨-, -, -, -, e0, e1, -⟩ := index0_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 10000 + 1 * p.val = r.val; rw [e0, hr]; omega
  | ⟨1, _⟩ => show win0_2.index t (1 : Fin 2) * 64 + 1 * k.val = k.val; rw [e1]; omega

/-- The left weights' block at every point is the whole table. -/
theorem blk0_wl (c : Dev nD) (t : Fin cfg0.N) (k : Fin 64) (q : Fin 128) :
    (iblk0 V c 3 t : Vec Ideal S64x128 .bf16) (ix2 k q)
      = (V c (Pipeline.arrRef spec0 3) : S64x128.Idx → Elt Ideal .bf16) (ix2 k q) := by
  obtain ⟨-, -, -, -, -, -, e0, e1, -⟩ := index0_facts t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The bias row's block at every point is the whole row. -/
theorem blk0_bias (c : Dev nD) (t : Fin cfg0.N) (q : Fin 128) :
    (iblk0 V c 4 t : Vec Ideal S1x128 .f32) (ix2 0 q)
      = (V c (Pipeline.arrRef spec0 4) : S1x128.Idx → Elt Ideal .f32) (ix2 0 q) := by
  obtain ⟨-, -, -, -, -, -, -, -, e0, e1, -⟩ := index0_facts t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The right weights' block at every point is the whole table. -/
theorem blk0_wr (c : Dev nD) (t : Fin cfg0.N) (k : Fin 64) (q : Fin 128) :
    (iblk0 V c 5 t : Vec Ideal S64x128 .bf16) (ix2 k q)
      = (V c (Pipeline.arrRef spec0 5) : S64x128.Idx → Elt Ideal .bf16) (ix2 k q) := by
  obtain ⟨-, -, -, -, -, -, -, -, -, -, e0, e1, -⟩ := index0_facts t
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 64 + 1 * k.val = k.val; rw [e0]; omega
  | ⟨1, _⟩ => show win0_5.index t (1 : Fin 2) * 128 + 1 * q.val = q.val; rw [e1]; omega

/-- Entry `(p, q)` of the output's block at point `t` sits at row `t · 10000 + p` of the output. -/
theorem blk0_out_pos (t : Fin cfg0.N) (p : Fin 10000) (q : Fin 128) (r : Fin 50000)
    (hr : r.val = t.val * 10000 + p.val) :
    ((cfg0.win 6).blk t).view.emb (ix2 p q : S10000x128.Idx) = (ix2 r q : S50000x128.Idx) := by
  obtain ⟨-, -, -, -, -, -, -, -, -, -, -, -, e0, e1⟩ := index0_facts t
  funext a
  apply Fin.ext
  match a with
  | ⟨0, _⟩ => show win0_6.index t (0 : Fin 2) * 10000 + 1 * p.val = r.val; rw [e0, hr]; omega
  | ⟨1, _⟩ => show win0_6.index t (1 : Fin 2) * 128 + 1 * q.val = q.val; rw [e1]; omega

/-- What point `t` writes back is its block of the layer of the six arrays, raised to zero where negative. -/
theorem flushed0_eq (c : Dev nD) (t : Fin cfg0.N) :
    (dat0 (F := Ideal) V c).flushed 6 t
      = ((cfg0.win 6).blk t).view.read (Elt Ideal)
          (Cert.Sage.reluT (Cert.Sage.layK (N := 50000) (K := 64) (D := 128)
            (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5)))) := by
  show (cfg0.win 6).cut (grid0.coords t) ((dat0 V c).after 6 t) = _
  rw [after0_6]
  unfold out0_6
  rw [View.canon_unit_zero offsets_zero]
  simp only [View.ld_unit_zero (S := S10000x64) offsets_zero, View.ld_unit_zero (S := S10000x1) offsets_zero,
    View.ld_unit_zero (S := S64x128) offsets_zero, View.ld_unit_zero (S := S1x128) offsets_zero]
  funext j
  obtain ⟨p, q, rfl⟩ : ∃ (p : Fin 10000) (q : Fin 128), j = ix2 p q := ⟨j 0, j 1, eq_ix2 (n0 := 10000) (n1 := 128) j⟩
  have ht : t.val < 5 := lt_of_lt_of_eq t.isLt N_0
  have hp : p.val < 10000 := p.isLt
  rw [View.read_apply, blk0_out_pos t p q ⟨t.val * 10000 + p.val, by omega⟩ rfl]
  exact point64 (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (iblk0 V c 0 t) (iblk0 V c 1 t) (iblk0 V c 2 t) (iblk0 V c 3 t) (iblk0 V c 5 t) (iblk0 V c 4 t)
    p q ⟨t.val * 10000 + p.val, by omega⟩
    (fun k => blk0_aggr V c t p k _ rfl) (blk0_inv V c t p _ rfl) (fun k => blk0_feat V c t p k _ rfl)
    (fun k => blk0_wl V c t k q) (blk0_bias V c t q) (fun k => blk0_wr V c t k q)

/-- An index of the output is in point `t`'s block iff each coordinate is in the block's range on its axis. -/
theorem mem_blk0_out (t : Fin cfg0.N) (i : S50000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v29).slice (win0_6.rect t)).set ↔ _
  rw [View.set_slice_whole, Rect.mem_set_unit]
  exact Iff.rfl

/-- Every row of the output is in the block of the point numbered by the row's quotient by 10000. -/
theorem cover0_out (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  have hN : grid0.N = 5 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, -, -, -, -, -, -, -, -, e0, e1⟩ := index0_facts t
  refine ⟨t, flush0_6 t, ?_⟩
  rw [mem_blk0_out]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-- What the first layer's region leaves in its output array: every node's row is the layer (bias last) of the
    region's six input arrays as it found them, raised to zero where negative. -/
theorem region0_value (c : Dev nD) :
    (dat0 (F := Ideal) V c).arrAt 6 cfg0.N
      = Cert.Sage.reluT (Cert.Sage.layK (N := 50000) (K := 64) (D := 128)
          (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) :=
  (dat0 (F := Ideal) V c).arrAt_eq_of_cover 6 _ (fun t _ => flushed0_eq V c t) cover0_out

/-! ## The block product with 128 input features -/

theorem lhs128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs128_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs128_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into the zero accumulator, read at row `p` and column `q`, is the sum over the 128 features. -/
theorem matmul128_apply (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The body's one value, read at row `p` and column `q` of the block: the layer of the block's rows, bias last,
    raised to zero where negative. -/
theorem pay128_apply (x0 : Vec Ideal S10000x128 .bf16) (x1 : Vec Ideal S10000x1 .bf16) (x2 : Vec Ideal S10000x128 .bf16)
    (x3 : Vec Ideal S128x128 .bf16) (x5 : Vec Ideal S128x128 .bf16) (x4 : Vec Ideal S1x128 .f32) (p : Fin 10000) (q : Fin 128) :
    k1_pay1 (F := Ideal) x0 x1 x2 x3 x5 x4 (ix2 p q)
      = max (((∑ k : Fin 128, (x0 (ix2 p k) * x1 (ix2 p 0)) * x3 (ix2 k q)) + ∑ k : Fin 128, x2 (ix2 p k) * x5 (ix2 k q))
          + x4 (ix2 0 q)) 0 := by
  unfold k1_pay1
  simp only [shapeCast_self]
  rw [truncf_apply, maximumf_apply, addf_apply, addf_apply, matmul128_apply, matmul128_apply,
    broadcastTo_1b_ab_apply, broadcast_apply]
  simp only [truncf_apply, mulf_apply, extf_apply, broadcastTo_a1_ab_apply]
  exact congrArg (max _) Ideal.ofBits_zero_f32

/-- The layer's row `r` from a block's row `p`: if the block's rows of the aggregate, of the reciprocal column and of the
    features are row `r` of the arrays, and its weight and bias blocks are the arrays, the body's value at `(p, q)` is
    the layer at `(r, q)`, raised to zero where negative. -/
theorem point128 (A : S50000x128.Idx → EReal) (inv : S50000x1.Idx → EReal) (h : S50000x128.Idx → EReal)
    (wl : S128x128.Idx → EReal) (bl : S1x128.Idx → EReal) (wr : S128x128.Idx → EReal)
    (x0 : Vec Ideal S10000x128 .bf16) (x1 : Vec Ideal S10000x1 .bf16) (x2 : Vec Ideal S10000x128 .bf16)
    (x3 : Vec Ideal S128x128 .bf16) (x5 : Vec Ideal S128x128 .bf16) (x4 : Vec Ideal S1x128 .f32)
    (p : Fin 10000) (q : Fin 128) (r : Fin 50000)
    (h0 : ∀ k : Fin 128, x0 (ix2 p k) = A (ix2 r k)) (h1 : x1 (ix2 p 0) = inv (ix2 r 0))
    (h2 : ∀ k : Fin 128, x2 (ix2 p k) = h (ix2 r k)) (h3 : ∀ k : Fin 128, x3 (ix2 k q) = wl (ix2 k q))
    (h4 : x4 (ix2 0 q) = bl (ix2 0 q)) (h5 : ∀ k : Fin 128, x5 (ix2 k q) = wr (ix2 k q)) :
    k1_pay1 (F := Ideal) x0 x1 x2 x3 x5 x4 (ix2 p q)
      = Cert.Sage.reluT (Cert.Sage.layK (N := 50000) (K := 128) (D := 128) A inv h wl bl wr) (ix2 r q) := by
  rw [pay128_apply]
  show _ = max (Cert.Sage.linK A inv h wl bl wr r q) 0
  unfold Cert.Sage.linK
  simp only [h0, h1, h2, h3, h4, h5]

/-! ## The second region's blocks -/

/-- The second region's index maps over its five points: the three row-blocked inputs and the output move down the rows with the
    point, the weights and the bias stay. -/
theorem index1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the aggregate's block at point `t` is row `t · 10000 + p` of the aggregate. -/
theorem blk1_aggr (c : Dev nD) (t : Fin cfg1.N) (p : Fin 10000) (k : Fin 128) (r : Fin 50000)
    (hr : r.val = t.val * 10000 + p.val) :
    (iblk1 V c 0 t : Vec Ideal S10000x128 .bf16) (ix2 p k)
      = (V c (Pipeline.arrRef spec1 0) : S50000x128.Idx → Elt Ideal .bf16) (ix2 r k) := by
  obtain ⟨e0, e1, -⟩ := index1_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Row `p` of the reciprocal column's block at point `t` is row `t · 10000 + p` of the column. -/
theorem blk1_inv (c : Dev nD) (t : Fin cfg1.N) (p : Fin 10000) (r : Fin 50000)
    (hr : r.val = t.val * 10000 + p.val) :
    (iblk1 V c 1 t : Vec Ideal S10000x1 .bf16) (ix2 p 0)
      = (V c (Pipeline.arrRef spec1 1) : S50000x1.Idx → Elt Ideal .bf16) (ix2 r 0) := by
  obtain ⟨-, -, e0, e1, -⟩ := index1_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- Row `p` of the features' block at point `t` is row `t · 10000 + p` of the features. -/
theorem blk1_feat (c : Dev nD) (t : Fin cfg1.N) (p : Fin 10000) (k : Fin 128) (r : Fin 50000)
    (hr : r.val = t.val * 10000 + p.val) :
    (iblk1 V c 2 t : Vec Ideal S10000x128 .bf16) (ix2 p k)
      = (V c (Pipeline.arrRef spec1 2) : S50000x128.Idx → Elt Ideal .bf16) (ix2 r k) := by
  obtain ⟨-, -, -, -, e0, e1, -⟩ := index1_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 10000 + 1 * p.val = r.val; rw [e0, hr]; omega
  | ⟨1, _⟩ => show win1_2.index t (1 : Fin 2) * 128 + 1 * k.val = k.val; rw [e1]; omega

/-- The left weights' block at every point is the whole table. -/
theorem blk1_wl (c : Dev nD) (t : Fin cfg1.N) (k : Fin 128) (q : Fin 128) :
    (iblk1 V c 3 t : Vec Ideal S128x128 .bf16) (ix2 k q)
      = (V c (Pipeline.arrRef spec1 3) : S128x128.Idx → Elt Ideal .bf16) (ix2 k q) := by
  obtain ⟨-, -, -, -, -, -, e0, e1, -⟩ := index1_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block at every point is the whole row. -/
theorem blk1_bias (c : Dev nD) (t : Fin cfg1.N) (q : Fin 128) :
    (iblk1 V c 4 t : Vec Ideal S1x128 .f32) (ix2 0 q)
      = (V c (Pipeline.arrRef spec1 4) : S1x128.Idx → Elt Ideal .f32) (ix2 0 q) := by
  obtain ⟨-, -, -, -, -, -, -, -, e0, e1, -⟩ := index1_facts t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The right weights' block at every point is the whole table. -/
theorem blk1_wr (c : Dev nD) (t : Fin cfg1.N) (k : Fin 128) (q : Fin 128) :
    (iblk1 V c 5 t : Vec Ideal S128x128 .bf16) (ix2 k q)
      = (V c (Pipeline.arrRef spec1 5) : S128x128.Idx → Elt Ideal .bf16) (ix2 k q) := by
  obtain ⟨-, -, -, -, -, -, -, -, -, -, e0, e1, -⟩ := index1_facts t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- Entry `(p, q)` of the output's block at point `t` sits at row `t · 10000 + p` of the output. -/
theorem blk1_out_pos (t : Fin cfg1.N) (p : Fin 10000) (q : Fin 128) (r : Fin 50000)
    (hr : r.val = t.val * 10000 + p.val) :
    ((cfg1.win 6).blk t).view.emb (ix2 p q : S10000x128.Idx) = (ix2 r q : S50000x128.Idx) := by
  obtain ⟨-, -, -, -, -, -, -, -, -, -, -, -, e0, e1⟩ := index1_facts t
  funext a
  apply Fin.ext
  match a with
  | ⟨0, _⟩ => show win1_6.index t (0 : Fin 2) * 10000 + 1 * p.val = r.val; rw [e0, hr]; omega
  | ⟨1, _⟩ => show win1_6.index t (1 : Fin 2) * 128 + 1 * q.val = q.val; rw [e1]; omega

/-- What point `t` writes back is its block of the layer of the six arrays, raised to zero where negative. -/
theorem flushed1_eq (c : Dev nD) (t : Fin cfg1.N) :
    (dat1 (F := Ideal) V c).flushed 6 t
      = ((cfg1.win 6).blk t).view.read (Elt Ideal)
          (Cert.Sage.reluT (Cert.Sage.layK (N := 50000) (K := 128) (D := 128)
            (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5)))) := by
  show (cfg1.win 6).cut (grid1.coords t) ((dat1 V c).after 6 t) = _
  rw [after1_6]
  unfold out1_6
  rw [View.canon_unit_zero offsets_zero]
  simp only [View.ld_unit_zero (S := S10000x128) offsets_zero, View.ld_unit_zero (S := S10000x1) offsets_zero,
    View.ld_unit_zero (S := S128x128) offsets_zero, View.ld_unit_zero (S := S1x128) offsets_zero]
  funext j
  obtain ⟨p, q, rfl⟩ : ∃ (p : Fin 10000) (q : Fin 128), j = ix2 p q := ⟨j 0, j 1, eq_ix2 (n0 := 10000) (n1 := 128) j⟩
  have ht : t.val < 5 := lt_of_lt_of_eq t.isLt N_1
  have hp : p.val < 10000 := p.isLt
  rw [View.read_apply, blk1_out_pos t p q ⟨t.val * 10000 + p.val, by omega⟩ rfl]
  exact point128 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 5 t) (iblk1 V c 4 t)
    p q ⟨t.val * 10000 + p.val, by omega⟩
    (fun k => blk1_aggr V c t p k _ rfl) (blk1_inv V c t p _ rfl) (fun k => blk1_feat V c t p k _ rfl)
    (fun k => blk1_wl V c t k q) (blk1_bias V c t q) (fun k => blk1_wr V c t k q)

/-- An index of the output is in point `t`'s block iff each coordinate is in the block's range on its axis. -/
theorem mem_blk1_out (t : Fin cfg1.N) (i : S50000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v45).slice (win1_6.rect t)).set ↔ _
  rw [View.set_slice_whole, Rect.mem_set_unit]
  exact Iff.rfl

/-- Every row of the output is in the block of the point numbered by the row's quotient by 10000. -/
theorem cover1_out (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : grid1.N = 5 := N_1
  obtain ⟨t, ht⟩ : ∃ t : Fin cfg1.N, t.val = (i 0).val / 10000 :=
    ⟨⟨(i 0).val / 10000, by show (i 0).val / 10000 < grid1.N; omega⟩, rfl⟩
  obtain ⟨-, -, -, -, -, -, -, -, -, -, -, -, e0, e1⟩ := index1_facts t
  refine ⟨t, flush1_6 t, ?_⟩
  rw [mem_blk1_out]
  intro a
  match a with
  | ⟨0, _⟩ =>
    show win1_6.index t (0 : Fin 2) * 10000 ≤ (i 0).val ∧ (i 0).val < win1_6.index t (0 : Fin 2) * 10000 + 10000
    rw [e0, ht]; omega
  | ⟨1, _⟩ =>
    show win1_6.index t (1 : Fin 2) * 128 ≤ (i 1).val ∧ (i 1).val < win1_6.index t (1 : Fin 2) * 128 + 128
    rw [e1]; omega

/-- The same for the second layer's region (128 input features). -/
theorem region1_value (c : Dev nD) :
    (dat1 (F := Ideal) V c).arrAt 6 cfg1.N
      = Cert.Sage.reluT (Cert.Sage.layK (N := 50000) (K := 128) (D := 128)
          (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))) :=
  (dat1 (F := Ideal) V c).arrAt_eq_of_cover 6 _ (fun t _ => flushed1_eq V c t) cover1_out

end Cert.KernelIdeal.Gen

end
-- ==== Proof.KHostA.lean ====
import proofs.«407286_j335007449146_3_alg».proof.Proof.Gen.KernelIdeal.Frame
import proofs.«407286_j335007449146_3_alg».proof.Proof.SageMath
import proofs.«407286_j335007449146_3_alg».proof.Proof.KDefs
import proofs.«407286_j335007449146_3_alg».proof.Proof.KLayer
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The program's arguments on core c, as launched. -/
abbrev aX (c : Dev nD) : Vec Ideal S50000x64 .f32 := m ((c : Thread nD τ).loc main_arg0)
abbrev aE (c : Dev nD) : Vec Ideal S2x600000 .i32 := m ((c : Thread nD τ).loc main_arg1)
abbrev aB (c : Dev nD) : Vec Ideal S50000 .i32 := m ((c : Thread nD τ).loc main_arg2)
abbrev aWl1 (c : Dev nD) : Vec Ideal S64x128 .f32 := m ((c : Thread nD τ).loc main_arg3)
abbrev ab1 (c : Dev nD) : Vec Ideal S128 .f32 := m ((c : Thread nD τ).loc main_arg4)
abbrev aWr1 (c : Dev nD) : Vec Ideal S64x128 .f32 := m ((c : Thread nD τ).loc main_arg5)
abbrev aWl2 (c : Dev nD) : Vec Ideal S128x128 .f32 := m ((c : Thread nD τ).loc main_arg6)
abbrev ab2 (c : Dev nD) : Vec Ideal S128 .f32 := m ((c : Thread nD τ).loc main_arg7)
abbrev aWr2 (c : Dev nD) : Vec Ideal S128x128 .f32 := m ((c : Thread nD τ).loc main_arg8)
abbrev aWl3 (c : Dev nD) : Vec Ideal S128x128 .f32 := m ((c : Thread nD τ).loc main_arg9)
abbrev ab3 (c : Dev nD) : Vec Ideal S128 .f32 := m ((c : Thread nD τ).loc main_arg10)
abbrev aWr3 (c : Dev nD) : Vec Ideal S128x128 .f32 := m ((c : Thread nD τ).loc main_arg11)

/-- What the stretches after the second region still read of the buffers written before it: the edge table's two
    rows, the reciprocal column, and the arguments not yet used. -/
structure Carry (c : Dev nD) (W : Valuation τ sig (Elt Ideal)) : Prop where
  v1 : W (Proc.devRef .tc main_v1) = KV.src (aE m c)
  v3 : W (Proc.devRef .tc main_v3) = KV.dst (aE m c)
  v12 : W (Proc.devRef .tc main_v12) = KV.inv (aE m c)
  a2 : W (Proc.devRef .tc main_arg2) = aB m c
  a9 : W (Proc.devRef .tc main_arg9) = aWl3 m c
  a10 : W (Proc.devRef .tc main_arg10) = ab3 m c
  a11 : W (Proc.devRef .tc main_arg11) = aWr3 m c

/-! ## The first three stretches: what the first region finds -/

/-- The features in the narrower format. -/
theorem W3_v13 (c : Dev nD) : W3 m ρ c (Proc.devRef .tc main_v13) = KV.bf (aX m c) := by
  show StableHlo.after hostOps0_2 (W2 m ρ c) (Proc.devRef .tc main_v13) = _
  after_results_simp
  rfl

theorem W3_v27 (c : Dev nD) : W3 m ρ c (Proc.devRef .tc main_v27) = KV.bf (aWl1 m c) := by
  show StableHlo.after hostOps0_2 (W2 m ρ c) (Proc.devRef .tc main_v27) = _
  after_results_simp
  rfl

theorem W3_v28 (c : Dev nD) : W3 m ρ c (Proc.devRef .tc main_v28) = KV.bf (aWr1 m c) := by
  show StableHlo.after hostOps0_2 (W2 m ρ c) (Proc.devRef .tc main_v28) = _
  after_results_simp
  rfl

theorem W3_v26 (c : Dev nD) : W3 m ρ c (Proc.devRef .tc main_v26) = KV.row (ab1 m c) := by
  show StableHlo.after hostOps0_2 (W2 m ρ c) (Proc.devRef .tc main_v26) = _
  after_results_simp
  rfl

/-- The edge table's two rows. -/
theorem W3_v1 (c : Dev nD) : W3 m ρ c (Proc.devRef .tc main_v1) = KV.src (aE m c) := by
  show StableHlo.after hostOps0_2 (W2 m ρ c) (Proc.devRef .tc main_v1) = _
  after_results_simp
  rfl

theorem W3_v3 (c : Dev nD) : W3 m ρ c (Proc.devRef .tc main_v3) = KV.dst (aE m c) := by
  show StableHlo.after hostOps0_2 (W2 m ρ c) (Proc.devRef .tc main_v3) = _
  after_results_simp
  rfl

/-- The reciprocal column of the in-degrees. -/
theorem W3_v12 (c : Dev nD) : W3 m ρ c (Proc.devRef .tc main_v12) = KV.inv (aE m c) := by
  show StableHlo.after hostOps0_2 (W2 m ρ c) (Proc.devRef .tc main_v12) = _
  after_results_simp
  rfl

/-- The neighbour aggregate of the features. -/
theorem W3_v25 (c : Dev nD) : W3 m ρ c (Proc.devRef .tc main_v25) = KV.agg64 (aE m c) (KV.bf (aX m c)) := by
  show StableHlo.after hostOps0_2 (W2 m ρ c) (Proc.devRef .tc main_v25) = _
  after_results_simp
  rfl

/-- No operation of the first three stretches writes an argument. -/
theorem W3_arg2 (c : Dev nD) : W3 m ρ c (Proc.devRef .tc main_arg2) = aB m c := by
  show StableHlo.after hostOps0_2 (W2 m ρ c) (Proc.devRef .tc main_arg2) = _
  after_results_simp
theorem W3_arg6 (c : Dev nD) : W3 m ρ c (Proc.devRef .tc main_arg6) = aWl2 m c := by
  show StableHlo.after hostOps0_2 (W2 m ρ c) (Proc.devRef .tc main_arg6) = _
  after_results_simp
theorem W3_arg7 (c : Dev nD) : W3 m ρ c (Proc.devRef .tc main_arg7) = ab2 m c := by
  show StableHlo.after hostOps0_2 (W2 m ρ c) (Proc.devRef .tc main_arg7) = _
  after_results_simp
theorem W3_arg8 (c : Dev nD) : W3 m ρ c (Proc.devRef .tc main_arg8) = aWr2 m c := by
  show StableHlo.after hostOps0_2 (W2 m ρ c) (Proc.devRef .tc main_arg8) = _
  after_results_simp
theorem W3_arg9 (c : Dev nD) : W3 m ρ c (Proc.devRef .tc main_arg9) = aWl3 m c := by
  show StableHlo.after hostOps0_2 (W2 m ρ c) (Proc.devRef .tc main_arg9) = _
  after_results_simp
theorem W3_arg10 (c : Dev nD) : W3 m ρ c (Proc.devRef .tc main_arg10) = ab3 m c := by
  show StableHlo.after hostOps0_2 (W2 m ρ c) (Proc.devRef .tc main_arg10) = _
  after_results_simp
theorem W3_arg11 (c : Dev nD) : W3 m ρ c (Proc.devRef .tc main_arg11) = aWr3 m c := by
  show StableHlo.after hostOps0_2 (W2 m ρ c) (Proc.devRef .tc main_arg11) = _
  after_results_simp

/-! ## The first region -/

/-- An input array of the first region is as the region found it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) := by
  rw [W4_arr, (dat0 (V3 m ρ) c).arrAt_in w hin, A_eq0]

/-- The first region's output array is the first layer's output. -/
theorem W4_v29 (c : Dev nD) :
    W4 m ρ c (Proc.devRef .tc main_v29) = KV.h1 (aX m c) (aE m c) (aWl1 m c) (ab1 m c) (aWr1 m c) := by
  refine (W4_arr m ρ c 6).trans ?_
  refine (region0_value (V3 m ρ) c).trans ?_
  show Cert.Sage.reluT (Cert.Sage.layK (N := 50000) (K := 64) (D := 128)
      (W3 m ρ c (Proc.devRef .tc main_v25)) (W3 m ρ c (Proc.devRef .tc main_v12)) (W3 m ρ c (Proc.devRef .tc main_v13))
      (W3 m ρ c (Proc.devRef .tc main_v27)) (W3 m ρ c (Proc.devRef .tc main_v26)) (W3 m ρ c (Proc.devRef .tc main_v28))) = _
  rw [W3_v25, W3_v12, W3_v13, W3_v27, W3_v26, W3_v28]
  rfl

theorem W4_v1 (c : Dev nD) : W4 m ρ c (Proc.devRef .tc main_v1) = KV.src (aE m c) :=
  (W4_of_ne m ρ c main_v1 (by decide)).trans (W3_v1 m ρ c)
theorem W4_v3 (c : Dev nD) : W4 m ρ c (Proc.devRef .tc main_v3) = KV.dst (aE m c) :=
  (W4_of_ne m ρ c main_v3 (by decide)).trans (W3_v3 m ρ c)
theorem W4_v12 (c : Dev nD) : W4 m ρ c (Proc.devRef .tc main_v12) = KV.inv (aE m c) :=
  (W4_in m ρ c 1 rfl).trans (W3_v12 m ρ c)
theorem W4_arg2 (c : Dev nD) : W4 m ρ c (Proc.devRef .tc main_arg2) = aB m c :=
  (W4_of_ne m ρ c main_arg2 (by decide)).trans (W3_arg2 m ρ c)
theorem W4_arg6 (c : Dev nD) : W4 m ρ c (Proc.devRef .tc main_arg6) = aWl2 m c :=
  (W4_of_ne m ρ c main_arg6 (by decide)).trans (W3_arg6 m ρ c)
theorem W4_arg7 (c : Dev nD) : W4 m ρ c (Proc.devRef .tc main_arg7) = ab2 m c :=
  (W4_of_ne m ρ c main_arg7 (by decide)).trans (W3_arg7 m ρ c)
theorem W4_arg8 (c : Dev nD) : W4 m ρ c (Proc.devRef .tc main_arg8) = aWr2 m c :=
  (W4_of_ne m ρ c main_arg8 (by decide)).trans (W3_arg8 m ρ c)
theorem W4_arg9 (c : Dev nD) : W4 m ρ c (Proc.devRef .tc main_arg9) = aWl3 m c :=
  (W4_of_ne m ρ c main_arg9 (by decide)).trans (W3_arg9 m ρ c)
theorem W4_arg10 (c : Dev nD) : W4 m ρ c (Proc.devRef .tc main_arg10) = ab3 m c :=
  (W4_of_ne m ρ c main_arg10 (by decide)).trans (W3_arg10 m ρ c)
theorem W4_arg11 (c : Dev nD) : W4 m ρ c (Proc.devRef .tc main_arg11) = aWr3 m c :=
  (W4_of_ne m ρ c main_arg11 (by decide)).trans (W3_arg11 m ρ c)

/-! ## The stretch between the first two regions: what the second region finds -/

/-- The neighbour aggregate of the first layer's output. -/
theorem W5_v41 (c : Dev nD) :
    W5 m ρ c (Proc.devRef .tc main_v41)
      = KV.agg128 (aE m c) (KV.h1 (aX m c) (aE m c) (aWl1 m c) (ab1 m c) (aWr1 m c)) := by
  show StableHlo.after hostOps1 (W4 m ρ c) (Proc.devRef .tc main_v41) = _
  after_results_simp
  rw [W4_v29, W4_v1, W4_v3]
  rfl

theorem W5_v43 (c : Dev nD) : W5 m ρ c (Proc.devRef .tc main_v43) = KV.bf (aWl2 m c) := by
  show StableHlo.after hostOps1 (W4 m ρ c) (Proc.devRef .tc main_v43) = _
  after_results_simp
  rw [W4_arg6]
  rfl

theorem W5_v42 (c : Dev nD) : W5 m ρ c (Proc.devRef .tc main_v42) = KV.row (ab2 m c) := by
  show StableHlo.after hostOps1 (W4 m ρ c) (Proc.devRef .tc main_v42) = _
  after_results_simp
  rw [W4_arg7]
  rfl

theorem W5_v44 (c : Dev nD) : W5 m ρ c (Proc.devRef .tc main_v44) = KV.bf (aWr2 m c) := by
  show StableHlo.after hostOps1 (W4 m ρ c) (Proc.devRef .tc main_v44) = _
  after_results_simp
  rw [W4_arg8]
  rfl

/-- The stretch writes none of the buffers carried further. -/
theorem W5_v29 (c : Dev nD) :
    W5 m ρ c (Proc.devRef .tc main_v29) = KV.h1 (aX m c) (aE m c) (aWl1 m c) (ab1 m c) (aWr1 m c) := by
  show StableHlo.after hostOps1 (W4 m ρ c) (Proc.devRef .tc main_v29) = _
  after_results_simp
  exact W4_v29 m ρ c
theorem W5_v12 (c : Dev nD) : W5 m ρ c (Proc.devRef .tc main_v12) = KV.inv (aE m c) := by
  show StableHlo.after hostOps1 (W4 m ρ c) (Proc.devRef .tc main_v12) = _
  after_results_simp
  exact W4_v12 m ρ c
theorem W5_v1 (c : Dev nD) : W5 m ρ c (Proc.devRef .tc main_v1) = KV.src (aE m c) := by
  show StableHlo.after hostOps1 (W4 m ρ c) (Proc.devRef .tc main_v1) = _
  after_results_simp
  exact W4_v1 m ρ c
theorem W5_v3 (c : Dev nD) : W5 m ρ c (Proc.devRef .tc main_v3) = KV.dst (aE m c) := by
  show StableHlo.after hostOps1 (W4 m ρ c) (Proc.devRef .tc main_v3) = _
  after_results_simp
  exact W4_v3 m ρ c
theorem W5_arg2 (c : Dev nD) : W5 m ρ c (Proc.devRef .tc main_arg2) = aB m c := by
  show StableHlo.after hostOps1 (W4 m ρ c) (Proc.devRef .tc main_arg2) = _
  after_results_simp
  exact W4_arg2 m ρ c
theorem W5_arg9 (c : Dev nD) : W5 m ρ c (Proc.devRef .tc main_arg9) = aWl3 m c := by
  show StableHlo.after hostOps1 (W4 m ρ c) (Proc.devRef .tc main_arg9) = _
  after_results_simp
  exact W4_arg9 m ρ c
theorem W5_arg10 (c : Dev nD) : W5 m ρ c (Proc.devRef .tc main_arg10) = ab3 m c := by
  show StableHlo.after hostOps1 (W4 m ρ c) (Proc.devRef .tc main_arg10) = _
  after_results_simp
  exact W4_arg10 m ρ c
theorem W5_arg11 (c : Dev nD) : W5 m ρ c (Proc.devRef .tc main_arg11) = aWr3 m c := by
  show StableHlo.after hostOps1 (W4 m ρ c) (Proc.devRef .tc main_arg11) = _
  after_results_simp
  exact W4_arg11 m ρ c

/-! ## The second region -/

/-- An input array of the second region is as the region found it. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) := by
  rw [W6_arr, (dat1 (V5 m ρ) c).arrAt_in w hin, A_eq1]

/-- The buffers' contents when the second region has ended carry what the later stretches read. -/
theorem carry6 (c : Dev nD) : Carry m c (W6 m ρ c) := by
  exact
    { v1 := (W6_of_ne m ρ c main_v1 (by decide)).trans (W5_v1 m ρ c)
      v3 := (W6_of_ne m ρ c main_v3 (by decide)).trans (W5_v3 m ρ c)
      v12 := (W6_in m ρ c 1 rfl).trans (W5_v12 m ρ c)
      a2 := (W6_of_ne m ρ c main_arg2 (by decide)).trans (W5_arg2 m ρ c)
      a9 := (W6_of_ne m ρ c main_arg9 (by decide)).trans (W5_arg9 m ρ c)
      a10 := (W6_of_ne m ρ c main_arg10 (by decide)).trans (W5_arg10 m ρ c)
      a11 := (W6_of_ne m ρ c main_arg11 (by decide)).trans (W5_arg11 m ρ c) }

/-- The second region's output array, when it has ended, is the second layer's output. -/
theorem W6_h2 (c : Dev nD) :
    W6 m ρ c (Proc.devRef .tc main_v45)
      = KV.h2 (aX m c) (aE m c) (aWl1 m c) (ab1 m c) (aWr1 m c) (aWl2 m c) (ab2 m c) (aWr2 m c) := by
  refine (W6_arr m ρ c 6).trans ?_
  refine (region1_value (V5 m ρ) c).trans ?_
  show Cert.Sage.reluT (Cert.Sage.layK (N := 50000) (K := 128) (D := 128)
      (W5 m ρ c (Proc.devRef .tc main_v41)) (W5 m ρ c (Proc.devRef .tc main_v12)) (W5 m ρ c (Proc.devRef .tc main_v29))
      (W5 m ρ c (Proc.devRef .tc main_v43)) (W5 m ρ c (Proc.devRef .tc main_v42)) (W5 m ρ c (Proc.devRef .tc main_v44))) = _
  rw [W5_v41, W5_v12, W5_v29, W5_v43, W5_v42, W5_v44]
  rfl

end Cert.KernelIdeal.Gen

end
-- ==== Proof.KHostB.lean ====
import proofs.«407286_j335007449146_3_alg».proof.Proof.Gen.KernelIdeal.Frame
import proofs.«407286_j335007449146_3_alg».proof.Proof.SageMath
import proofs.«407286_j335007449146_3_alg».proof.Proof.KDefs
import proofs.«407286_j335007449146_3_alg».proof.Proof.KPool
import proofs.«407286_j335007449146_3_alg».proof.Proof.KHostA
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The third region's entry

The stretch between the second and the third region reads the edge table's two rows, the second layer's output and
four of the arguments, and writes the third region's input arrays: the neighbour aggregate of the second layer's
output, the third layer's two weight tables in the narrower format, its bias as a one-row table, and the graph
numbers as a column. The reciprocal column and the second layer's output pass through it unchanged. -/

/-- The graph-number column at the third region's entry. -/
theorem W7_v61 (c : Dev nD) : W7 m ρ c (Proc.devRef .tc main_v61) = KV.btCol (aB m c) := by
  show StableHlo.after hostOps2 (W6 m ρ c) (Proc.devRef .tc main_v61) = _
  after_results
  rw [(carry6 m ρ c).a2]
  rfl

/-- The third layer's bias row at the third region's entry. -/
theorem W7_v58 (c : Dev nD) : W7 m ρ c (Proc.devRef .tc main_v58) = KV.row (ab3 m c) := by
  show StableHlo.after hostOps2 (W6 m ρ c) (Proc.devRef .tc main_v58) = _
  after_results
  rw [(carry6 m ρ c).a10]
  rfl

/-- The third layer's neighbour weights at the third region's entry. -/
theorem W7_v59 (c : Dev nD) : W7 m ρ c (Proc.devRef .tc main_v59) = KV.bf (aWl3 m c) := by
  show StableHlo.after hostOps2 (W6 m ρ c) (Proc.devRef .tc main_v59) = _
  after_results
  rw [(carry6 m ρ c).a9]
  rfl

/-- The third layer's own-row weights at the third region's entry. -/
theorem W7_v60 (c : Dev nD) : W7 m ρ c (Proc.devRef .tc main_v60) = KV.bf (aWr3 m c) := by
  show StableHlo.after hostOps2 (W6 m ρ c) (Proc.devRef .tc main_v60) = _
  after_results
  rw [(carry6 m ρ c).a11]
  rfl

/-- The reciprocal column passes through the stretch. -/
theorem W7_v12 (c : Dev nD) : W7 m ρ c (Proc.devRef .tc main_v12) = KV.inv (aE m c) := by
  show StableHlo.after hostOps2 (W6 m ρ c) (Proc.devRef .tc main_v12) = _
  after_results
  exact (carry6 m ρ c).v12

/-- The second layer's output passes through the stretch. -/
theorem W7_v45 (c : Dev nD) : W7 m ρ c (Proc.devRef .tc main_v45)
    = KV.h2 (aX m c) (aE m c) (aWl1 m c) (ab1 m c) (aWr1 m c) (aWl2 m c) (ab2 m c) (aWr2 m c) := by
  show StableHlo.after hostOps2 (W6 m ρ c) (Proc.devRef .tc main_v45) = _
  after_results
  exact W6_h2 m ρ c

/-- The graph numbers pass through the stretch. -/
theorem W7_arg2 (c : Dev nD) : W7 m ρ c (Proc.devRef .tc main_arg2) = aB m c := by
  show StableHlo.after hostOps2 (W6 m ρ c) (Proc.devRef .tc main_arg2) = _
  after_results
  exact (carry6 m ρ c).a2

/-- The neighbour aggregate of the second layer's output at the third region's entry. -/
theorem W7_v57 (c : Dev nD) : W7 m ρ c (Proc.devRef .tc main_v57)
    = KV.agg128 (aE m c) (KV.h2 (aX m c) (aE m c) (aWl1 m c) (ab1 m c) (aWr1 m c) (aWl2 m c) (ab2 m c) (aWr2 m c)) := by
  show StableHlo.after hostOps2 (W6 m ρ c) (Proc.devRef .tc main_v57) = _
  after_results_simp
  rw [(carry6 m ρ c).v1, (carry6 m ρ c).v3, W6_h2 m ρ c]
  rfl

/-! ## The third region's exit

The third region's seven input arrays, named by the windows that stage them. -/

theorem V7_w0 (c : Dev nD) : V7 m ρ c (Pipeline.arrRef spec2 0)
    = KV.agg128 (aE m c) (KV.h2 (aX m c) (aE m c) (aWl1 m c) (ab1 m c) (aWr1 m c) (aWl2 m c) (ab2 m c) (aWr2 m c)) :=
  W7_v57 m ρ c
theorem V7_w1 (c : Dev nD) : V7 m ρ c (Pipeline.arrRef spec2 1) = KV.inv (aE m c) := W7_v12 m ρ c
theorem V7_w2 (c : Dev nD) : V7 m ρ c (Pipeline.arrRef spec2 2)
    = KV.h2 (aX m c) (aE m c) (aWl1 m c) (ab1 m c) (aWr1 m c) (aWl2 m c) (ab2 m c) (aWr2 m c) := W7_v45 m ρ c
theorem V7_w3 (c : Dev nD) : V7 m ρ c (Pipeline.arrRef spec2 3) = KV.bf (aWl3 m c) := W7_v59 m ρ c
theorem V7_w4 (c : Dev nD) : V7 m ρ c (Pipeline.arrRef spec2 4) = KV.row (ab3 m c) := W7_v58 m ρ c
theorem V7_w5 (c : Dev nD) : V7 m ρ c (Pipeline.arrRef spec2 5) = KV.bf (aWr3 m c) := W7_v60 m ρ c
theorem V7_w6 (c : Dev nD) : V7 m ρ c (Pipeline.arrRef spec2 6) = KV.btCol (aB m c) := W7_v61 m ρ c

/-- The per-tile sums of a layer's rows depend only on the seven tables they are made of. -/
theorem pool_lay_congr {bt bt' : Vec Ideal S50000x1 .i32} {A A' : Vec Ideal S50000x128 .bf16}
    {iv iv' : Vec Ideal S50000x1 .bf16} {h h' : Vec Ideal S50000x128 .bf16} {wl wl' : Vec Ideal S128x128 .bf16}
    {b b' : Vec Ideal S1x128 .f32} {wr wr' : Vec Ideal S128x128 .bf16}
    (e6 : bt = bt') (e0 : A = A') (e1 : iv = iv') (e2 : h = h') (e3 : wl = wl') (e4 : b = b') (e5 : wr = wr') :
    Cert.Sage.poolTiles bt (Cert.Sage.layK (N := 50000) (K := 128) (D := 128) A iv h wl b wr)
      = Cert.Sage.poolTiles bt' (Cert.Sage.layK (N := 50000) (K := 128) (D := 128) A' iv' h' wl' b' wr') := by
  subst e6 e0 e1 e2 e3 e4 e5
  rfl

/-- The third region leaves the per-tile per-graph sums of the third layer's rows in its output array. -/
theorem W8_v62 (c : Dev nD) : W8 m ρ c (Proc.devRef .tc main_v62)
    = KV.part (aX m c) (aE m c) (aB m c) (aWl1 m c) (ab1 m c) (aWr1 m c) (aWl2 m c) (ab2 m c) (aWr2 m c)
        (aWl3 m c) (ab3 m c) (aWr3 m c) :=
  (W8_arr m ρ c 7).trans ((region2_value (V7 m ρ) c).trans
    (pool_lay_congr (V7_w6 m ρ c) (V7_w0 m ρ c) (V7_w1 m ρ c) (V7_w2 m ρ c) (V7_w3 m ρ c) (V7_w4 m ρ c) (V7_w5 m ρ c)))

/-- The third region does not touch the graph numbers. -/
theorem W8_arg2 (c : Dev nD) : W8 m ρ c (Proc.devRef .tc main_arg2) = aB m c :=
  (W8_of_ne m ρ c main_arg2 (by decide)).trans (W7_arg2 m ρ c)

/-! ## The stretches after the third region

They add the tiles' tables, count every graph's nodes (raised to at least one) from the graph numbers, and divide. Each
stretch is read for any contents of the buffers it finds. -/

/-- The last stretch: the quotient of the summed table by the counts spread along the rows. -/
theorem tail2_v71 (V : Valuation τ sig (Elt Ideal)) :
    StableHlo.after hostOps3_2 V (Proc.devRef .tc main_v71)
      = Host.divf (F := Ideal) (φ := .f32) (s := S64x128) (V (Proc.devRef .tc main_v63))
          (broadcastInDim S64x128 ![0, 1] bcast_S64x1_S64x128_0_1
            (broadcastInDim (s := S64) S64x1 ![0] bcast_S64_S64x1_0 (V (Proc.devRef .tc main_v68)))) := by
  after_results

/-- The stretch before it: the counts raised to at least one. -/
theorem tail1_v68 (V : Valuation τ sig (Elt Ideal)) :
    StableHlo.after hostOps3_1 V (Proc.devRef .tc main_v68)
      = maximumf (F := Ideal) (φ := .f32) (s := S64) (broadcastInDim (s := S_) S64 ![] bcast_S_S64 (id (V (Proc.devRef .tc main_cst_14))))
          (V (Proc.devRef .tc main_v67)) := by
  after_results
  rfl

/-- That stretch leaves the summed table as it was. -/
theorem tail1_v63 (V : Valuation τ sig (Elt Ideal)) :
    StableHlo.after hostOps3_1 V (Proc.devRef .tc main_v63) = V (Proc.devRef .tc main_v63) := by
  after_results

/-- The first stretch after the region: the tiles' tables added. -/
theorem tail0_v63 (V : Valuation τ sig (Elt Ideal)) :
    StableHlo.after hostOps3 V (Proc.devRef .tc main_v63)
      = (Host.reduceAdd (F := Ideal) (V (Proc.devRef .tc main_v62) : Vec Ideal S25x64x128 .f32)
          (constant (F := Ideal) S_ .f32 0x00000000#32) reducesTo_S25x64x128_S64x128_d0 h_S_ : Vec Ideal S64x128 .f32) := by
  after_results

/-- The first stretch after the region: every graph's node count. -/
theorem tail0_v67 (V : Valuation τ sig (Elt Ideal)) :
    StableHlo.after hostOps3 V (Proc.devRef .tc main_v67)
      = (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 (V (Proc.devRef .tc main_arg2) : Vec Ideal S50000 .i32))
          (broadcastInDim S50000 ![] bcast_S_S50000 (constant (F := Ideal) S_ .f32 0x3F800000#32)) : Vec Ideal S64 .f32) := by
  after_results

/-- The first stretch after the region: the constant one. -/
theorem tail0_cst14 (V : Valuation τ sig (Elt Ideal)) :
    StableHlo.after hostOps3 V (Proc.devRef .tc main_cst_14) = (constant (F := Ideal) S_ .f32 0x3F800000#32 : Vec Ideal S_ .f32) := by
  after_results

/-- The result buffer as a function of the third region's output array and the graph numbers at its exit. -/
theorem W11_v71 (c : Dev nD) : W11 m ρ c (Proc.devRef .tc main_v71)
    = KV.fin (W8 m ρ c (Proc.devRef .tc main_v62)) (W8 m ρ c (Proc.devRef .tc main_arg2)) := by
  dsimp only [W11]
  rw [tail2_v71]
  dsimp only [W10]
  rw [tail1_v63, tail1_v68]
  dsimp only [W9]
  rw [tail0_v63, tail0_v67, tail0_cst14]
  rfl

/-- The result buffer, after the last host stretch, holds the kernel program's result as a function of the arguments. -/
theorem kernel_value (c : Dev nD) :
    W11 m ρ c (Proc.devRef .tc main_v71)
      = KV.out (aX m c) (aE m c) (aB m c) (aWl1 m c) (ab1 m c) (aWr1 m c) (aWl2 m c) (ab2 m c) (aWr2 m c)
          (aWl3 m c) (ab3 m c) (aWr3 m c) := by
  rw [W11_v71, W8_v62, W8_arg2]
  rfl

end Cert.KernelIdeal.Gen

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.RNet.lean ====
import proofs.«407286_j335007449146_3_alg».proof.Proof.Gen.ReferenceIdeal.Read
import proofs.«407286_j335007449146_3_alg».proof.Proof.SageMath
import proofs.«407286_j335007449146_3_alg».proof.Proof.LibScatterRows
import Idealize.ShloMosaic.Lib.ValueIdx
import Idealize.ShloMosaic.Lib.Pipeline.Value
import Idealize.ShloMosaic.PureOps.Ideal.Laws

/-!
# The reference program's values, named

The reference's result as a function of its arguments, read over the extended reals: three mean-aggregating layers
(the aggregate divided by the in-degree raised to at least one, the bias added in the middle), the first two raised to
zero where negative, then every graph's rows added up and divided by the graph's node count raised to at least one.
-/

noncomputable section

namespace Cert.ReferenceIdeal.RV

open Cert.ReferenceIdeal Cert.ReferenceIdeal.Gen Cert.ReferenceIdeal.Read Idealize.ShloMosaic Idealize.ShloMosaic.ValueIdx
open scoped BigOperators

/-- The neighbour aggregate of a 64-column table: source rows gathered, added onto destination rows. -/
def agg64 (e : Vec Ideal S2x600000 .i32) (tbl : Vec Ideal S50000x64 .f32) : Vec Ideal S50000x64 .f32 :=
  Host.scatterAdd (F := Ideal) (φ := .f32) scatter_S50000x64_S600000x1_S600000x64_1_0_0_1 (val_main_v11 (F := Ideal)) (val_main_v12 (F := Ideal) e)
    (Host.gather (α := Ideal .f32) gather_S50000x64_S600000x1_S600000x64_1_0_n_n_0_1_164 tbl (val_main_v9 (F := Ideal) e))

/-- The neighbour aggregate of a 128-column table. -/
def agg128 (e : Vec Ideal S2x600000 .i32) (tbl : Vec Ideal S50000x128 .f32) : Vec Ideal S50000x128 .f32 :=
  Host.scatterAdd (F := Ideal) (φ := .f32) scatter_S50000x128_S600000x1_S600000x128_1_0_0_1 (val_main_v36 (F := Ideal)) (val_main_v37 (F := Ideal) e)
    (Host.gather (α := Ideal .f32) gather_S50000x128_S600000x1_S600000x128_1_0_n_n_0_1_1128 tbl (val_main_v34 (F := Ideal) e))

/-- Every node's in-degree, raised to at least one. -/
def cnt (e : Vec Ideal S2x600000 .i32) : Vec Ideal S50000 .f32 := val_main_v18 (F := Ideal) e

/-- The first layer's output. -/
def h1 (x : Vec Ideal S50000x64 .f32) (e : Vec Ideal S2x600000 .i32) (wl1 : Vec Ideal S64x128 .f32)
    (b1 : Vec Ideal S128 .f32) (wr1 : Vec Ideal S64x128 .f32) : Vec Ideal S50000x128 .f32 :=
  Cert.Sage.reluT (Cert.Sage.layR (N := 50000) (K := 64) (D := 128) (agg64 e x) (cnt e) x wl1 b1 wr1)

/-- The second layer's output. -/
def h2 (x : Vec Ideal S50000x64 .f32) (e : Vec Ideal S2x600000 .i32) (wl1 : Vec Ideal S64x128 .f32)
    (b1 : Vec Ideal S128 .f32) (wr1 : Vec Ideal S64x128 .f32) (wl2 : Vec Ideal S128x128 .f32)
    (b2 : Vec Ideal S128 .f32) (wr2 : Vec Ideal S128x128 .f32) : Vec Ideal S50000x128 .f32 :=
  Cert.Sage.reluT (Cert.Sage.layR (N := 50000) (K := 128) (D := 128) (agg128 e (h1 x e wl1 b1 wr1)) (cnt e)
    (h1 x e wl1 b1 wr1) wl2 b2 wr2)

/-- The third layer's output (not raised to zero). -/
def h3 (x : Vec Ideal S50000x64 .f32) (e : Vec Ideal S2x600000 .i32) (wl1 : Vec Ideal S64x128 .f32)
    (b1 : Vec Ideal S128 .f32) (wr1 : Vec Ideal S64x128 .f32) (wl2 : Vec Ideal S128x128 .f32)
    (b2 : Vec Ideal S128 .f32) (wr2 : Vec Ideal S128x128 .f32) (wl3 : Vec Ideal S128x128 .f32)
    (b3 : Vec Ideal S128 .f32) (wr3 : Vec Ideal S128x128 .f32) : Vec Ideal S50000x128 .f32 :=
  Cert.Sage.layR (N := 50000) (K := 128) (D := 128) (agg128 e (h2 x e wl1 b1 wr1 wl2 b2 wr2)) (cnt e)
    (h2 x e wl1 b1 wr1 wl2 b2 wr2) wl3 b3 wr3

/-- Every graph's rows added up: row n goes to the graph whose number is bt n, read signed; a number that names no
    graph drops the row. -/
def pooled (bt : Vec Ideal S50000 .i32) (H : Vec Ideal S50000x128 .f32) : Vec Ideal S64x128 .f32 :=
  Cert.Sage.of2 fun g j => 0 + ∑ n : Fin 50000, if (bt (ix1 n)).toInt = (g.val : Int) then H (ix2 n j) else 0

/-- The reference's result. -/
def out (x : Vec Ideal S50000x64 .f32) (e : Vec Ideal S2x600000 .i32) (bt : Vec Ideal S50000 .i32)
    (wl1 : Vec Ideal S64x128 .f32) (b1 : Vec Ideal S128 .f32) (wr1 : Vec Ideal S64x128 .f32)
    (wl2 : Vec Ideal S128x128 .f32) (b2 : Vec Ideal S128 .f32) (wr2 : Vec Ideal S128x128 .f32)
    (wl3 : Vec Ideal S128x128 .f32) (b3 : Vec Ideal S128 .f32) (wr3 : Vec Ideal S128x128 .f32) :
    Vec Ideal S64x128 .f32 :=
  Host.divf (F := Ideal) (φ := .f32) (pooled bt (h3 x e wl1 b1 wr1 wl2 b2 wr2 wl3 b3 wr3)) (val_main_v87 (F := Ideal) bt)

/-! ## The index columns and the counts of the later layers are the first layer's -/

/-- The source-row column of the second layer is the first layer's: the same selection from the edge table. -/
theorem v34_eq (e : Vec Ideal S2x600000 .i32) : val_main_v34 (F := Ideal) e = val_main_v9 (F := Ideal) e := rfl

/-- The source-row column of the third layer is the second layer's. -/
theorem v59_eq (e : Vec Ideal S2x600000 .i32) : val_main_v59 (F := Ideal) e = val_main_v34 (F := Ideal) e := rfl

/-- The destination-row column of the third layer is the second layer's. -/
theorem v62_eq (e : Vec Ideal S2x600000 .i32) : val_main_v62 (F := Ideal) e = val_main_v37 (F := Ideal) e := rfl

/-- The zero table the third layer's aggregate starts from is the second layer's. -/
theorem v61_eq : val_main_v61 (F := Ideal) = val_main_v36 (F := Ideal) := rfl

/-- The second layer's in-degrees, raised to at least one, are the first layer's. -/
theorem v43_eq (e : Vec Ideal S2x600000 .i32) : val_main_v43 (F := Ideal) e = cnt e := rfl

/-- The third layer's in-degrees, raised to at least one, are the first layer's. -/
theorem v68_eq (e : Vec Ideal S2x600000 .i32) : val_main_v68 (F := Ideal) e = cnt e := rfl

/-- The first layer's aggregate. -/
theorem v13_eq (x0 : Vec Ideal S50000x64 .f32) (e : Vec Ideal S2x600000 .i32) :
    val_main_v13 (F := Ideal) x0 e = agg64 e x0 := rfl

/-- The second layer's aggregate is the 128-column aggregate of the first layer's output. -/
theorem v38_eq (x0 : Vec Ideal S50000x64 .f32) (e : Vec Ideal S2x600000 .i32) (x3 : Vec Ideal S64x128 .f32)
    (x4 : Vec Ideal S128 .f32) (x5 : Vec Ideal S64x128 .f32) :
    val_main_v38 (F := Ideal) x0 e x3 x4 x5 = agg128 e (val_main_v28 (F := Ideal) x0 e x3 x4 x5) := rfl

/-- The first layer's in-degrees, raised to at least one. -/
theorem v18_eq (e : Vec Ideal S2x600000 .i32) : val_main_v18 (F := Ideal) e = cnt e := rfl

/-! ## The three layers -/

/-- The first layer's function at a row and a column. -/
theorem h1_apply (x0 : Vec Ideal S50000x64 .f32) (e : Vec Ideal S2x600000 .i32) (x3 : Vec Ideal S64x128 .f32)
    (x4 : Vec Ideal S128 .f32) (x5 : Vec Ideal S64x128 .f32) (p : Fin 50000) (q : Fin 128) :
    h1 x0 e x3 x4 x5 (ix2 p q)
      = max (((∑ k : Fin 64, Ideal.div (agg64 e x0 (ix2 p k)) (cnt e (ix1 p)) * x3 (ix2 k q)) + x4 (ix1 q))
          + ∑ k : Fin 64, x0 (ix2 p k) * x5 (ix2 k q)) 0 := by
  unfold h1 Cert.Sage.reluT
  rw [Cert.Sage.layR_apply]
  unfold Cert.Sage.linR
  rfl

/-- The first layer's output buffer is the first layer's function of the arguments. -/
theorem v28_eq (x0 : Vec Ideal S50000x64 .f32) (e : Vec Ideal S2x600000 .i32) (x3 : Vec Ideal S64x128 .f32)
    (x4 : Vec Ideal S128 .f32) (x5 : Vec Ideal S64x128 .f32) :
    val_main_v28 (F := Ideal) x0 e x3 x4 x5 = h1 x0 e x3 x4 x5 := by
  funext i
  obtain ⟨p, q, rfl⟩ : ∃ (p : Fin 50000) (q : Fin 128), i = ix2 p q := ⟨i 0, i 1, eq_ix2 i⟩
  have el : ∀ k : Fin 64, lidx_main_v22 (ix2 p q) k = ix2 p k := fun k => funext fun a => by
    match a with | ⟨0, _⟩ => rfl | ⟨1, _⟩ => rfl
  have er : ∀ k : Fin 64, ridx_main_v22 (ix2 p q) k = ix2 k q := fun k => funext fun a => by
    match a with | ⟨0, _⟩ => rfl | ⟨1, _⟩ => rfl
  have el' : ∀ k : Fin 64, lidx_main_v26 (ix2 p q) k = ix2 p k := fun k => funext fun a => by
    match a with | ⟨0, _⟩ => rfl | ⟨1, _⟩ => rfl
  have er' : ∀ k : Fin 64, ridx_main_v26 (ix2 p q) k = ix2 k q := fun k => funext fun a => by
    match a with | ⟨0, _⟩ => rfl | ⟨1, _⟩ => rfl
  have eb : idx_main_v23 (idx_main_v24 (ix2 p q)) = ix1 q := funext fun a => by
    match a with | ⟨0, _⟩ => rfl
  have ec : ∀ k : Fin 64, idx_main_v19 (idx_main_v20 (ix2 p k)) = ix1 p := fun k => funext fun a => by
    match a with | ⟨0, _⟩ => rfl
  -- the summand of the aggregate's product, entry by entry
  have hs1 : ∀ k : Fin 64, val_main_v21 (F := Ideal) x0 e (lidx_main_v22 (ix2 p q) k) * x3 (ridx_main_v22 (ix2 p q) k)
      = Ideal.div (agg64 e x0 (ix2 p k)) (cnt e (ix1 p)) * x3 (ix2 k q) := fun k => by
    rw [el k, er k, val_main_v21_apply, val_main_v20_apply, val_main_v19_apply, v13_eq, v18_eq, ec k, Ideal.hostDivf_def]
  -- the summand of the node's own product
  have hs2 : ∀ k : Fin 64, x0 (lidx_main_v26 (ix2 p q) k) * x5 (ridx_main_v26 (ix2 p q) k)
      = x0 (ix2 p k) * x5 (ix2 k q) := fun k => by
    rw [el' k, er' k]
  rw [val_main_v28_apply, val_main_v27_apply, val_main_v25_apply, val_main_v26_apply, val_main_v22_apply, val_main_v24_apply, val_main_v23_apply, val_main_call1_v0_apply, val_main_call1_cst_apply, eb,
    Finset.sum_congr rfl (fun k _ => hs1 k), Finset.sum_congr rfl (fun k _ => hs2 k),
    Ideal.maximumf_def, Ideal.addf_def, Ideal.addf_def, Ideal.ofBits_def, Ideal.ofBits_zero_f32, h1_apply]

/-- The second layer's function at a row and a column. -/
theorem h2_apply (x0 : Vec Ideal S50000x64 .f32) (e : Vec Ideal S2x600000 .i32) (x3 : Vec Ideal S64x128 .f32)
    (x4 : Vec Ideal S128 .f32) (x5 : Vec Ideal S64x128 .f32) (x6 : Vec Ideal S128x128 .f32)
    (x7 : Vec Ideal S128 .f32) (x8 : Vec Ideal S128x128 .f32) (p : Fin 50000) (q : Fin 128) :
    h2 x0 e x3 x4 x5 x6 x7 x8 (ix2 p q)
      = max (((∑ k : Fin 128, Ideal.div (agg128 e (h1 x0 e x3 x4 x5) (ix2 p k)) (cnt e (ix1 p)) * x6 (ix2 k q)) + x7 (ix1 q))
          + ∑ k : Fin 128, h1 x0 e x3 x4 x5 (ix2 p k) * x8 (ix2 k q)) 0 := by
  unfold h2 Cert.Sage.reluT
  rw [Cert.Sage.layR_apply]
  unfold Cert.Sage.linR
  rfl

/-- The second layer's output buffer is the second layer's function of the arguments. -/
theorem v53_eq (x0 : Vec Ideal S50000x64 .f32) (e : Vec Ideal S2x600000 .i32) (x3 : Vec Ideal S64x128 .f32)
    (x4 : Vec Ideal S128 .f32) (x5 : Vec Ideal S64x128 .f32) (x6 : Vec Ideal S128x128 .f32)
    (x7 : Vec Ideal S128 .f32) (x8 : Vec Ideal S128x128 .f32) :
    val_main_v53 (F := Ideal) x0 e x3 x4 x5 x6 x7 x8 = h2 x0 e x3 x4 x5 x6 x7 x8 := by
  funext i
  obtain ⟨p, q, rfl⟩ : ∃ (p : Fin 50000) (q : Fin 128), i = ix2 p q := ⟨i 0, i 1, eq_ix2 i⟩
  have el : ∀ k : Fin 128, lidx_main_v47 (ix2 p q) k = ix2 p k := fun k => funext fun a => by
    match a with | ⟨0, _⟩ => rfl | ⟨1, _⟩ => rfl
  have er : ∀ k : Fin 128, ridx_main_v47 (ix2 p q) k = ix2 k q := fun k => funext fun a => by
    match a with | ⟨0, _⟩ => rfl | ⟨1, _⟩ => rfl
  have el' : ∀ k : Fin 128, lidx_main_v51 (ix2 p q) k = ix2 p k := fun k => funext fun a => by
    match a with | ⟨0, _⟩ => rfl | ⟨1, _⟩ => rfl
  have er' : ∀ k : Fin 128, ridx_main_v51 (ix2 p q) k = ix2 k q := fun k => funext fun a => by
    match a with | ⟨0, _⟩ => rfl | ⟨1, _⟩ => rfl
  have eb : idx_main_v48 (idx_main_v49 (ix2 p q)) = ix1 q := funext fun a => by
    match a with | ⟨0, _⟩ => rfl
  have ec : ∀ k : Fin 128, idx_main_v44 (idx_main_v45 (ix2 p k)) = ix1 p := fun k => funext fun a => by
    match a with | ⟨0, _⟩ => rfl
  -- the summand of the aggregate's product, entry by entry
  have hs1 : ∀ k : Fin 128, val_main_v46 (F := Ideal) x0 e x3 x4 x5 (lidx_main_v47 (ix2 p q) k) * x6 (ridx_main_v47 (ix2 p q) k)
      = Ideal.div (agg128 e (h1 x0 e x3 x4 x5) (ix2 p k)) (cnt e (ix1 p)) * x6 (ix2 k q) := fun k => by
    rw [el k, er k, val_main_v46_apply, val_main_v45_apply, val_main_v44_apply, v38_eq, v43_eq, v28_eq, ec k, Ideal.hostDivf_def]
  -- the summand of the node's own product
  have hs2 : ∀ k : Fin 128, val_main_v28 (F := Ideal) x0 e x3 x4 x5 (lidx_main_v51 (ix2 p q) k) * x8 (ridx_main_v51 (ix2 p q) k)
      = h1 x0 e x3 x4 x5 (ix2 p k) * x8 (ix2 k q) := fun k => by
    rw [el' k, er' k, v28_eq]
  rw [val_main_v53_apply, val_main_v52_apply, val_main_v50_apply, val_main_v51_apply, val_main_v47_apply, val_main_v49_apply, val_main_v48_apply, val_main_call3_v0_apply, val_main_call3_cst_apply, eb,
    Finset.sum_congr rfl (fun k _ => hs1 k), Finset.sum_congr rfl (fun k _ => hs2 k),
    Ideal.maximumf_def, Ideal.addf_def, Ideal.addf_def, Ideal.ofBits_def, Ideal.ofBits_zero_f32, h2_apply]

/-- The third layer's aggregate is the 128-column aggregate of the second layer's output. -/
theorem v63_eq (x0 : Vec Ideal S50000x64 .f32) (e : Vec Ideal S2x600000 .i32) (x3 : Vec Ideal S64x128 .f32)
    (x4 : Vec Ideal S128 .f32) (x5 : Vec Ideal S64x128 .f32) (x6 : Vec Ideal S128x128 .f32)
    (x7 : Vec Ideal S128 .f32) (x8 : Vec Ideal S128x128 .f32) :
    val_main_v63 (F := Ideal) x0 e x3 x4 x5 x6 x7 x8 = agg128 e (val_main_v53 (F := Ideal) x0 e x3 x4 x5 x6 x7 x8) := rfl

/-- The third layer's function at a row and a column. -/
theorem h3_apply (x0 : Vec Ideal S50000x64 .f32) (e : Vec Ideal S2x600000 .i32) (x3 : Vec Ideal S64x128 .f32)
    (x4 : Vec Ideal S128 .f32) (x5 : Vec Ideal S64x128 .f32) (x6 : Vec Ideal S128x128 .f32)
    (x7 : Vec Ideal S128 .f32) (x8 : Vec Ideal S128x128 .f32) (x9 : Vec Ideal S128x128 .f32)
    (x10 : Vec Ideal S128 .f32) (x11 : Vec Ideal S128x128 .f32) (p : Fin 50000) (q : Fin 128) :
    h3 x0 e x3 x4 x5 x6 x7 x8 x9 x10 x11 (ix2 p q)
      = ((∑ k : Fin 128, Ideal.div (agg128 e (h2 x0 e x3 x4 x5 x6 x7 x8) (ix2 p k)) (cnt e (ix1 p)) * x9 (ix2 k q)) + x10 (ix1 q))
          + ∑ k : Fin 128, h2 x0 e x3 x4 x5 x6 x7 x8 (ix2 p k) * x11 (ix2 k q) := by
  unfold h3
  rw [Cert.Sage.layR_apply]
  unfold Cert.Sage.linR
  rfl

/-- The third layer's output buffer is the third layer's function of the arguments. -/
theorem v77_eq (x0 : Vec Ideal S50000x64 .f32) (e : Vec Ideal S2x600000 .i32) (x3 : Vec Ideal S64x128 .f32)
    (x4 : Vec Ideal S128 .f32) (x5 : Vec Ideal S64x128 .f32) (x6 : Vec Ideal S128x128 .f32)
    (x7 : Vec Ideal S128 .f32) (x8 : Vec Ideal S128x128 .f32) (x9 : Vec Ideal S128x128 .f32)
    (x10 : Vec Ideal S128 .f32) (x11 : Vec Ideal S128x128 .f32) :
    val_main_v77 (F := Ideal) x0 e x3 x4 x5 x6 x7 x8 x9 x10 x11 = h3 x0 e x3 x4 x5 x6 x7 x8 x9 x10 x11 := by
  funext i
  obtain ⟨p, q, rfl⟩ : ∃ (p : Fin 50000) (q : Fin 128), i = ix2 p q := ⟨i 0, i 1, eq_ix2 i⟩
  have el : ∀ k : Fin 128, lidx_main_v72 (ix2 p q) k = ix2 p k := fun k => funext fun a => by
    match a with | ⟨0, _⟩ => rfl | ⟨1, _⟩ => rfl
  have er : ∀ k : Fin 128, ridx_main_v72 (ix2 p q) k = ix2 k q := fun k => funext fun a => by
    match a with | ⟨0, _⟩ => rfl | ⟨1, _⟩ => rfl
  have el' : ∀ k : Fin 128, lidx_main_v76 (ix2 p q) k = ix2 p k := fun k => funext fun a => by
    match a with | ⟨0, _⟩ => rfl | ⟨1, _⟩ => rfl
  have er' : ∀ k : Fin 128, ridx_main_v76 (ix2 p q) k = ix2 k q := fun k => funext fun a => by
    match a with | ⟨0, _⟩ => rfl | ⟨1, _⟩ => rfl
  have eb : idx_main_v73 (idx_main_v74 (ix2 p q)) = ix1 q := funext fun a => by
    match a with | ⟨0, _⟩ => rfl
  have ec : ∀ k : Fin 128, idx_main_v69 (idx_main_v70 (ix2 p k)) = ix1 p := fun k => funext fun a => by
    match a with | ⟨0, _⟩ => rfl
  -- the summand of the aggregate's product, entry by entry
  have hs1 : ∀ k : Fin 128, val_main_v71 (F := Ideal) x0 e x3 x4 x5 x6 x7 x8 (lidx_main_v72 (ix2 p q) k) * x9 (ridx_main_v72 (ix2 p q) k)
      = Ideal.div (agg128 e (h2 x0 e x3 x4 x5 x6 x7 x8) (ix2 p k)) (cnt e (ix1 p)) * x9 (ix2 k q) := fun k => by
    rw [el k, er k, val_main_v71_apply, val_main_v70_apply, val_main_v69_apply, v63_eq, v68_eq, v53_eq, ec k, Ideal.hostDivf_def]
  -- the summand of the node's own product
  have hs2 : ∀ k : Fin 128, val_main_v53 (F := Ideal) x0 e x3 x4 x5 x6 x7 x8 (lidx_main_v76 (ix2 p q) k) * x11 (ridx_main_v76 (ix2 p q) k)
      = h2 x0 e x3 x4 x5 x6 x7 x8 (ix2 p k) * x11 (ix2 k q) := fun k => by
    rw [el' k, er' k, v53_eq]
  rw [val_main_v77_apply, val_main_v75_apply, val_main_v76_apply, val_main_v72_apply, val_main_v74_apply, val_main_v73_apply, eb,
    Finset.sum_congr rfl (fun k _ => hs1 k), Finset.sum_congr rfl (fun k _ => hs2 k),
    Ideal.addf_def, Ideal.addf_def, h3_apply]

/-! ## The per-graph sum -/

/-- The per-graph table at a graph and a column: the zero table's entry plus the rows of the graph, the graph
    numbers read from the column that repeats the argument. -/
theorem v80_apply (x0 : Vec Ideal S50000x64 .f32) (e : Vec Ideal S2x600000 .i32) (bt : Vec Ideal S50000 .i32)
    (x3 : Vec Ideal S64x128 .f32) (x4 : Vec Ideal S128 .f32) (x5 : Vec Ideal S64x128 .f32)
    (x6 : Vec Ideal S128x128 .f32) (x7 : Vec Ideal S128 .f32) (x8 x9 : Vec Ideal S128x128 .f32)
    (x10 : Vec Ideal S128 .f32) (x11 : Vec Ideal S128x128 .f32) (g : Fin 64) (j : Fin 128) :
    val_main_v80 (F := Ideal) x0 e bt x3 x4 x5 x6 x7 x8 x9 x10 x11 (ix2 g j)
      = pooled bt (val_main_v77 (F := Ideal) x0 e x3 x4 x5 x6 x7 x8 x9 x10 x11) (ix2 g j) := by
  have ecol : ∀ n : Fin 50000, idx_main_v79 (StableHlo.Predicate.ixP n) = ix1 n := fun n => funext fun a => by
    match a with | ⟨0, _⟩ => rfl
  have hrow : ∀ n : Fin 50000,
      (if (val_main_v79 (F := Ideal) bt (StableHlo.Predicate.ixP n)).toInt = (g.val : Int)
        then val_main_v77 (F := Ideal) x0 e x3 x4 x5 x6 x7 x8 x9 x10 x11 (ix2 n j) else 0)
      = (if (bt (ix1 n)).toInt = (g.val : Int)
        then val_main_v77 (F := Ideal) x0 e x3 x4 x5 x6 x7 x8 x9 x10 x11 (ix2 n j) else 0) := fun n => by
    rw [val_main_v79_apply, ecol n]
  unfold val_main_v80 Host.scatterAdd
  rw [Ideal.hostScatterAdd_def,
    Cert.ScatterRows.hostScatterAdd_rows scatter_S64x128_S50000x1_S50000x128_1_0_0_1 rfl rfl rfl rfl,
    val_main_v78_apply, val_main_cst_16_apply, Ideal.ofBits_def, Ideal.ofBits_zero_f32,
    Finset.sum_congr rfl (fun n _ => hrow n)]
  unfold pooled
  rw [Cert.Sage.of2_apply]

/-- The generated stage of the reference's result buffer is that function of the arguments. -/
theorem ref_value (x0 : Vec Ideal S50000x64 .f32) (x1 : Vec Ideal S2x600000 .i32) (x2 : Vec Ideal S50000 .i32)
    (x3 : Vec Ideal S64x128 .f32) (x4 : Vec Ideal S128 .f32) (x5 : Vec Ideal S64x128 .f32)
    (x6 : Vec Ideal S128x128 .f32) (x7 : Vec Ideal S128 .f32) (x8 x9 : Vec Ideal S128x128 .f32)
    (x10 : Vec Ideal S128 .f32) (x11 : Vec Ideal S128x128 .f32) :
    val_main_v88 (F := Ideal) x0 x1 x2 x3 x4 x5 x6 x7 x8 x9 x10 x11 = out x0 x1 x2 x3 x4 x5 x6 x7 x8 x9 x10 x11 := by
  have h80 : val_main_v80 (F := Ideal) x0 x1 x2 x3 x4 x5 x6 x7 x8 x9 x10 x11
      = pooled x2 (h3 x0 x1 x3 x4 x5 x6 x7 x8 x9 x10 x11) := by
    funext i
    obtain ⟨g, j, rfl⟩ : ∃ (g : Fin 64) (j : Fin 128), i = ix2 g j := ⟨i 0, i 1, eq_ix2 i⟩
    rw [v80_apply, v77_eq]
  unfold val_main_v88 out
  rw [h80]

end Cert.ReferenceIdeal.RV

end
-- ==== Proof.Bridge.lean ====
import proofs.«407286_j335007449146_3_alg».proof.Proof.KDefs
import proofs.«407286_j335007449146_3_alg».proof.Proof.RNet
import proofs.«407286_j335007449146_3_alg».proof.Proof.SageMath
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
# The two programs compute the same function of the arguments

The kernel program's result and the reference's, both as functions of the twelve arguments over the extended reals,
are equal. The edge table's rows, the in-degrees, the neighbour aggregate and the final division by the graphs' node
counts are the same operations on both sides; a change of float format is the identity. What differs is the
arrangement of a layer (the aggregate times a reciprocal against the aggregate divided, the bias last against the
bias in the middle: equal because the in-degree is raised to at least one, so it is not zero) and the arrangement of
the per-graph sums (per-tile products with a 0/1 membership table, then a sum over tiles, against adding every row
onto its graph's row: equal because 1 · a = a, 0 · a = 0, and tiles and positions enumerate the nodes).
-/

noncomputable section

namespace Cert.Bridge

open Idealize.ShloMosaic Idealize.ShloMosaic.ValueIdx Cert.ReferenceIdeal.Read
open scoped BigOperators

namespace KV
export Cert.KernelIdeal.KV (bf row src dst srcCol dstCol cnt inv agg64 agg128 h1 h2 btCol part cntG fin out)
end KV
namespace RV
export Cert.ReferenceIdeal.RV (agg64 agg128 cnt h1 h2 h3 pooled out)
end RV

/-- A narrowing change of float format is the identity on extended reals. -/
theorem truncf_eq {s : Shape} {φ ψ : FTy} (a : FVec Ideal s φ) (h : ψ.bits < φ.bits) :
    (truncf ψ a h : FVec Ideal s ψ) = a := rfl
/-- So is a widening one. -/
theorem extf_eq {s : Shape} {φ ψ : FTy} (a : FVec Ideal s φ) (h : φ.bits < ψ.bits) :
    (extf ψ a h : FVec Ideal s ψ) = a := rfl

theorem bf_eq {s : Shape} (x : Vec Ideal s .f32) : KV.bf x = x := rfl

/-- The in-degrees raised to one: the same operations in both programs. -/
theorem cnt_eq (e : Vec Ideal Cert.KernelIdeal.S2x600000 .i32) : KV.cnt e = RV.cnt e := by
  unfold Cert.KernelIdeal.KV.cnt Cert.ReferenceIdeal.RV.cnt val_main_v18 val_main_call0_v1 val_main_call0_v0 val_main_v17 val_main_v15 val_main_v16 val_main_v14 val_main_cst_1 val_main_cst_2 val_main_cst_3 val_main_v3 val_main_v2 Cert.KernelIdeal.KV.dstCol Cert.KernelIdeal.KV.dst
  rfl

/-- The neighbour aggregate of a 64-column table: the same operations in both programs. -/
theorem agg64_eq (e : Vec Ideal Cert.KernelIdeal.S2x600000 .i32) (t : Vec Ideal Cert.KernelIdeal.S50000x64 .f32) :
    KV.agg64 e t = RV.agg64 e t := by
  unfold Cert.KernelIdeal.KV.agg64 Cert.ReferenceIdeal.RV.agg64 val_main_v11 val_main_v12 val_main_v9 val_main_v8 val_main_v7 val_main_v6 val_main_v5 val_main_v4 val_main_c val_main_c_0 val_main_cst val_main_v3 val_main_v2 val_main_v1 val_main_v0 Cert.KernelIdeal.KV.dstCol Cert.KernelIdeal.KV.srcCol Cert.KernelIdeal.KV.dst Cert.KernelIdeal.KV.src
  rw [truncf_eq, extf_eq]
  rfl

/-- The neighbour aggregate of a 128-column table: the same operations in both programs. -/
theorem agg128_eq (e : Vec Ideal Cert.KernelIdeal.S2x600000 .i32) (t : Vec Ideal Cert.KernelIdeal.S50000x128 .f32) :
    KV.agg128 e t = RV.agg128 e t := by
  unfold Cert.KernelIdeal.KV.agg128 Cert.ReferenceIdeal.RV.agg128 val_main_v36 val_main_v37 val_main_v34 val_main_v33 val_main_v32 val_main_v31 val_main_v30 val_main_v29 val_main_c_4 val_main_c_5 val_main_cst_6 val_main_v3 val_main_v2 val_main_v1 val_main_v0 Cert.KernelIdeal.KV.dstCol Cert.KernelIdeal.KV.srcCol Cert.KernelIdeal.KV.dst Cert.KernelIdeal.KV.src
  rw [truncf_eq, extf_eq]
  rfl

/-- The in-degree raised to one is not zero. -/
theorem cnt_ne_zero (e : Vec Ideal Cert.KernelIdeal.S2x600000 .i32) (r : Fin 50000) : RV.cnt e (ix1 r) ≠ 0 := by
  rw [← cnt_eq]
  unfold Cert.KernelIdeal.KV.cnt
  rw [maximumf_apply]
  have h1 : broadcastInDim Cert.KernelIdeal.S50000 ![] Cert.KernelIdeal.Gen.bcast_S_S50000
      (id (constant (F := Ideal) Cert.KernelIdeal.S_ .f32 0x3F800000#32)) (ix1 r) = 1 := Ideal.ofBits_one_f32
  rw [h1]
  exact Cert.Sage.max_one_ne_zero _

/-- The reciprocal column holds one over the in-degree raised to one. -/
theorem inv_apply (e : Vec Ideal Cert.KernelIdeal.S2x600000 .i32) (r : Fin 50000) :
    KV.inv e (ix2 r 0) = Ideal.div 1 (RV.cnt e (ix1 r)) := by
  rw [← cnt_eq]
  unfold Cert.KernelIdeal.KV.inv
  rw [truncf_eq]
  rw [shapeCast_apply _ _ (ix2 r 0) (ix1 r) (by rw [Shape.rowMajor_val_one, Shape.rowMajor_val_two]; simp), hostDivf_apply]
  congr 1
  exact Ideal.ofBits_one_f32

/-- The bias as a one-row table holds the bias. -/
theorem row_apply (b : Vec Ideal Cert.KernelIdeal.S128 .f32) (j : Fin 128) : KV.row b (ix2 0 j) = b (ix1 j) :=
  shapeCast_a_1a_apply b _ 0 j

/-- The two arrangements of a layer, as whole tables. -/
theorem lay_eq {K : Nat} (A : (⟨2, ![50000, K]⟩ : Shape).Idx → EReal) (c : (⟨1, ![50000]⟩ : Shape).Idx → EReal)
    (inv : (⟨2, ![50000, 1]⟩ : Shape).Idx → EReal) (h : (⟨2, ![50000, K]⟩ : Shape).Idx → EReal)
    (wl : (⟨2, ![K, 128]⟩ : Shape).Idx → EReal) (b : (⟨1, ![128]⟩ : Shape).Idx → EReal)
    (bl : (⟨2, ![1, 128]⟩ : Shape).Idx → EReal) (wr : (⟨2, ![K, 128]⟩ : Shape).Idx → EReal)
    (hc : ∀ r : Fin 50000, c (ix1 r) ≠ 0) (hinv : ∀ r : Fin 50000, inv (ix2 r 0) = Ideal.div 1 (c (ix1 r)))
    (hbl : ∀ j : Fin 128, bl (ix2 0 j) = b (ix1 j)) :
    Cert.Sage.layK A inv h wl bl wr = Cert.Sage.layR A c h wl b wr := by
  funext i
  obtain ⟨p, q, rfl⟩ : ∃ (p : Fin 50000) (q : Fin 128), i = ix2 p q := ⟨i 0, i 1, eq_ix2 i⟩
  rw [Cert.Sage.layK_apply, Cert.Sage.layR_apply]
  exact Cert.Sage.linK_eq_linR A c inv h wl b bl wr p q (hc p) (hinv p) (hbl q)

theorem h1_eq (x : Vec Ideal Cert.KernelIdeal.S50000x64 .f32) (e : Vec Ideal Cert.KernelIdeal.S2x600000 .i32)
    (wl1 : Vec Ideal Cert.KernelIdeal.S64x128 .f32) (b1 : Vec Ideal Cert.KernelIdeal.S128 .f32)
    (wr1 : Vec Ideal Cert.KernelIdeal.S64x128 .f32) : KV.h1 x e wl1 b1 wr1 = RV.h1 x e wl1 b1 wr1 := by
  unfold Cert.KernelIdeal.KV.h1 Cert.ReferenceIdeal.RV.h1
  rw [bf_eq, bf_eq, bf_eq, agg64_eq]
  rw [lay_eq (K := 64) _ (RV.cnt e) _ _ _ b1 _ _ (cnt_ne_zero e) (inv_apply e) (row_apply b1)]

theorem h2_eq (x : Vec Ideal Cert.KernelIdeal.S50000x64 .f32) (e : Vec Ideal Cert.KernelIdeal.S2x600000 .i32)
    (wl1 : Vec Ideal Cert.KernelIdeal.S64x128 .f32) (b1 : Vec Ideal Cert.KernelIdeal.S128 .f32)
    (wr1 : Vec Ideal Cert.KernelIdeal.S64x128 .f32) (wl2 : Vec Ideal Cert.KernelIdeal.S128x128 .f32)
    (b2 : Vec Ideal Cert.KernelIdeal.S128 .f32) (wr2 : Vec Ideal Cert.KernelIdeal.S128x128 .f32) :
    KV.h2 x e wl1 b1 wr1 wl2 b2 wr2 = RV.h2 x e wl1 b1 wr1 wl2 b2 wr2 := by
  unfold Cert.KernelIdeal.KV.h2 Cert.ReferenceIdeal.RV.h2
  rw [h1_eq, bf_eq, bf_eq, agg128_eq]
  rw [lay_eq (K := 128) _ (RV.cnt e) _ _ _ b2 _ _ (cnt_ne_zero e) (inv_apply e) (row_apply b2)]

/-- The third layer's rows, in the kernel's arrangement over the kernel's second-layer output, are the reference's. -/
theorem h3_eq (x : Vec Ideal Cert.KernelIdeal.S50000x64 .f32) (e : Vec Ideal Cert.KernelIdeal.S2x600000 .i32)
    (wl1 : Vec Ideal Cert.KernelIdeal.S64x128 .f32) (b1 : Vec Ideal Cert.KernelIdeal.S128 .f32)
    (wr1 : Vec Ideal Cert.KernelIdeal.S64x128 .f32) (wl2 : Vec Ideal Cert.KernelIdeal.S128x128 .f32)
    (b2 : Vec Ideal Cert.KernelIdeal.S128 .f32) (wr2 : Vec Ideal Cert.KernelIdeal.S128x128 .f32)
    (wl3 : Vec Ideal Cert.KernelIdeal.S128x128 .f32) (b3 : Vec Ideal Cert.KernelIdeal.S128 .f32)
    (wr3 : Vec Ideal Cert.KernelIdeal.S128x128 .f32) :
    Cert.Sage.layK (N := 50000) (K := 128) (D := 128) (KV.agg128 e (KV.h2 x e wl1 b1 wr1 wl2 b2 wr2)) (KV.inv e)
        (KV.h2 x e wl1 b1 wr1 wl2 b2 wr2) (KV.bf wl3) (KV.row b3) (KV.bf wr3)
      = RV.h3 x e wl1 b1 wr1 wl2 b2 wr2 wl3 b3 wr3 := by
  unfold Cert.ReferenceIdeal.RV.h3
  rw [h2_eq, bf_eq, bf_eq, agg128_eq]
  rw [lay_eq (K := 128) _ (RV.cnt e) _ _ _ b3 _ _ (cnt_ne_zero e) (inv_apply e) (row_apply b3)]

/-- The word of a graph number below 64, read signed, is that number. -/
theorem toInt_ofNat_lt (g : Fin 64) : (BitVec.ofNat 32 g.val).toInt = (g.val : Int) := by
  have hlt := g.isLt
  have hn : (BitVec.ofNat 32 g.val).toNat = g.val := by
    rw [BitVec.toNat_ofNat]; exact Nat.mod_eq_of_lt (by omega)
  rw [BitVec.toInt_eq_toNat_of_lt (by rw [hn]; omega), hn]

/-- The membership entry is one exactly when the graph number, read signed, is g. -/
theorem sel_eq (b : BitVec 32) (g : Fin 64) : Cert.Sage.sel b g = if b.toInt = (g.val : Int) then 1 else 0 := by
  unfold Cert.Sage.sel
  by_cases h : b = BitVec.ofNat 32 g.val
  · rw [if_pos h, if_pos (by rw [h, toInt_ofNat_lt])]
  · rw [if_neg h, if_neg (fun h' => h (BitVec.eq_of_toInt_eq (by rw [h', toInt_ofNat_lt])))]

/-- The graph numbers as a column hold the graph numbers. -/
theorem btCol_apply (bt : Vec Ideal Cert.KernelIdeal.S50000 .i32) (n : Fin 50000) : KV.btCol bt (ix2 n 0) = bt (ix1 n) := by
  unfold Cert.KernelIdeal.KV.btCol
  exact shapeCast_apply bt _ (ix2 n 0) (ix1 n) (by rw [Shape.rowMajor_val_one, Shape.rowMajor_val_two]; simp)

/-- A sum over 25 tiles of 2000 positions is the sum over the 50000 nodes. -/
theorem sum_nodes {M : Type*} [AddCommMonoid M] (f : Fin 50000 → M) :
    (∑ t : Fin 25, ∑ r : Fin 2000, f (Cert.Sage.node t r)) = ∑ n : Fin 50000, f n :=
  Cert.Sage.sum_tiles 25 2000 f

/-- The sum over the tiles of the per-tile tables is every graph's rows added up. -/
theorem pool_eq (bt : Vec Ideal Cert.KernelIdeal.S50000 .i32) (H : Vec Ideal Cert.KernelIdeal.S50000x128 .f32) :
    Host.reduceAdd (F := Ideal) (φ := .f32) (Cert.Sage.poolTiles (KV.btCol bt) H)
        (constant (F := Ideal) Cert.KernelIdeal.S_ .f32 0x00000000#32)
        Cert.KernelIdeal.Gen.reducesTo_S25x64x128_S64x128_d0 Cert.KernelIdeal.Gen.h_S_
      = RV.pooled bt H := by
  funext i
  obtain ⟨g, j, rfl⟩ : ∃ (g : Fin 64) (j : Fin 128), i = ix2 g j := ⟨i 0, i 1, eq_ix2 i⟩
  have hR : Shape.Reduces Cert.KernelIdeal.S25x64x128 [0] Cert.KernelIdeal.S64x128 := by decide
  rw [hostReduceAdd_apply, Ideal.hostReduceAdd_single _ hR]
  have hl : ∀ t : Fin 25, hR.lift (ix2 g j) (t : Fin (Cert.KernelIdeal.S25x64x128.size 0)) = ix3 t g j := by
    intro t; funext c; apply Fin.ext
    show hR.liftVal (ix2 g j) t.val c = (ix3 t g j c).val
    unfold Shape.Reduces.liftVal
    match c with
    | ⟨0, _⟩ => rfl
    | ⟨1, _⟩ => rfl
    | ⟨2, _⟩ => rfl
  have hz : constant (F := Ideal) Cert.KernelIdeal.S_ .f32 0#32 (Shape.Idx.first Cert.KernelIdeal.Gen.h_S_) = 0 :=
    Ideal.ofBits_zero_f32
  rw [hz]
  unfold Cert.ReferenceIdeal.RV.pooled
  rw [Cert.Sage.of2_apply]
  refine congrArg (fun s : EReal => 0 + s) ?_
  rw [← sum_nodes (fun n => if (bt (ix1 n)).toInt = (g.val : Int) then H (ix2 n j) else 0)]
  show (∑ t : Fin 25, Cert.Sage.poolTiles (KV.btCol bt) H (hR.lift (ix2 g j) (t : Fin (Cert.KernelIdeal.S25x64x128.size 0)))) = _
  refine Finset.sum_congr rfl (fun t _ => ?_)
  rw [hl t, Cert.Sage.poolTiles_apply]
  refine Finset.sum_congr rfl (fun r _ => ?_)
  rw [btCol_apply, sel_eq]
  split <;> simp

/-- The final division's denominator: the graphs' node counts raised to one, the same operations in both programs. -/
theorem den_eq (bt : Vec Ideal Cert.KernelIdeal.S50000 .i32) :
    broadcastInDim Cert.KernelIdeal.S64x128 ![0, 1] Cert.KernelIdeal.Gen.bcast_S64x1_S64x128_0_1
        (broadcastInDim Cert.KernelIdeal.S64x1 ![0] Cert.KernelIdeal.Gen.bcast_S64_S64x1_0 (KV.cntG bt))
      = val_main_v87 (F := Ideal) bt := by
  unfold Cert.KernelIdeal.KV.cntG val_main_v87 val_main_v86 val_main_v85 val_main_call5_v1 val_main_call5_v0 val_main_v84 val_main_v82 val_main_v83 val_main_v81 val_main_cst_17 val_main_cst_18 val_main_cst_19
  rfl

/-- The two programs' results are the same function of the arguments. -/
theorem out_eq (x : Vec Ideal Cert.KernelIdeal.S50000x64 .f32) (e : Vec Ideal Cert.KernelIdeal.S2x600000 .i32)
    (bt : Vec Ideal Cert.KernelIdeal.S50000 .i32)
    (wl1 : Vec Ideal Cert.KernelIdeal.S64x128 .f32) (b1 : Vec Ideal Cert.KernelIdeal.S128 .f32)
    (wr1 : Vec Ideal Cert.KernelIdeal.S64x128 .f32) (wl2 : Vec Ideal Cert.KernelIdeal.S128x128 .f32)
    (b2 : Vec Ideal Cert.KernelIdeal.S128 .f32) (wr2 : Vec Ideal Cert.KernelIdeal.S128x128 .f32)
    (wl3 : Vec Ideal Cert.KernelIdeal.S128x128 .f32) (b3 : Vec Ideal Cert.KernelIdeal.S128 .f32)
    (wr3 : Vec Ideal Cert.KernelIdeal.S128x128 .f32) :
    KV.out x e bt wl1 b1 wr1 wl2 b2 wr2 wl3 b3 wr3 = RV.out x e bt wl1 b1 wr1 wl2 b2 wr2 wl3 b3 wr3 := by
  unfold Cert.KernelIdeal.KV.out Cert.KernelIdeal.KV.fin Cert.KernelIdeal.KV.part Cert.ReferenceIdeal.RV.out
  rw [h3_eq, pool_eq, den_eq]

end Cert.Bridge

end
-- ==== Proof.lean ====
/- The certificate's five claims for the three-layer mean-aggregating graph network with a per-graph mean at the end.
   The three frames: the two kernel programs' are the frames proved for the programs of three regions; the reference's is
   its run with the result dropped. The idealized kernel is the printed one (nothing was rewritten), so the fourth claim
   is empty. The value claim: the kernel program's result buffer holds a function of the twelve arguments (the run of
   the regions and host stretches read back), the reference's result buffer holds a function of them (its host
   operations read back), and the two functions are equal: a layer's two arrangements agree because the in-degree is
   raised to at least one, and the per-tile per-graph sums add up to every graph's rows added up. -/
import proofs.«407286_j335007449146_3_alg».proof.Defs
import proofs.«407286_j335007449146_3_alg».proof.Proof.Gen.Kernel
import proofs.«407286_j335007449146_3_alg».proof.Proof.Gen.Kernel.Skeleton
import proofs.«407286_j335007449146_3_alg».proof.Proof.Gen.Kernel.Launch
import proofs.«407286_j335007449146_3_alg».proof.Proof.Gen.Kernel.Points
import proofs.«407286_j335007449146_3_alg».proof.Proof.Gen.Kernel.Frame
import proofs.«407286_j335007449146_3_alg».proof.Proof.Gen.KernelIdeal
import proofs.«407286_j335007449146_3_alg».proof.Proof.Gen.KernelIdeal.Skeleton
import proofs.«407286_j335007449146_3_alg».proof.Proof.Gen.KernelIdeal.Launch
import proofs.«407286_j335007449146_3_alg».proof.Proof.Gen.KernelIdeal.Points
import proofs.«407286_j335007449146_3_alg».proof.Proof.Gen.KernelIdeal.Frame
import proofs.«407286_j335007449146_3_alg».proof.Proof.Gen.ReferenceIdeal
import proofs.«407286_j335007449146_3_alg».proof.Proof.Gen.ReferenceIdeal.Run
import proofs.«407286_j335007449146_3_alg».proof.Proof.Gen.ReferenceIdeal.Read
import proofs.«407286_j335007449146_3_alg».proof.Proof.Gen.Pre_finite_inputs
import proofs.«407286_j335007449146_3_alg».proof.Proof.KRun
import proofs.«407286_j335007449146_3_alg».proof.Proof.KHostB
import proofs.«407286_j335007449146_3_alg».proof.Proof.RNet
import proofs.«407286_j335007449146_3_alg».proof.Proof.Bridge
import Idealize.ShloMosaic.Adequacy
import Idealize.ShloMosaic.Init

noncomputable section

namespace Cert.Proof

open Idealize.ShloMosaic Idealize.SL.Sem Cert.Kernel

/-- The two idealized programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.KernelIdeal.KV.out (Cert.KernelIdeal.Gen.aX m c) (Cert.KernelIdeal.Gen.aE m c) (Cert.KernelIdeal.Gen.aB m c) (Cert.KernelIdeal.Gen.aWl1 m c) (Cert.KernelIdeal.Gen.ab1 m c) (Cert.KernelIdeal.Gen.aWr1 m c)
        (Cert.KernelIdeal.Gen.aWl2 m c) (Cert.KernelIdeal.Gen.ab2 m c) (Cert.KernelIdeal.Gen.aWr2 m c) (Cert.KernelIdeal.Gen.aWl3 m c) (Cert.KernelIdeal.Gen.ab3 m c) (Cert.KernelIdeal.Gen.aWr3 m c),
     (θ_run Cert.KernelIdeal.defs _ _).mono
        (fun _ h c => ⟨(h c).1.trans (Cert.KernelIdeal.Gen.kernel_value m ρ c), (h c).2⟩) (Cert.KernelIdeal.Gen.run_named (F := Ideal) m ρ),
     (θ_run Cert.ReferenceIdeal.defs _ _).mono
        (fun _ h c => ⟨by
            obtain ⟨h0, h1, h2, h3, h4, h5, h6, h7, h8, h9, h10, h11⟩ := hagree c
            rw [(h c).1, Cert.ReferenceIdeal.Read.val_main_v88_eq, Cert.ReferenceIdeal.RV.ref_value, ← Cert.Bridge.out_eq,
              h0, h1, h2, h3, h4, h5, h6, h7, h8, h9, h10, h11], (h c).2⟩)
        (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
